-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg1 : IVec S2x1600000 32) (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S2x1600000 32 := broadcastInDim S2x1600000 ![] bcast_S_S2x1600000 main_c_8
  let main_v25 : IVec S2x1600000 1 := cmpi .sge main_arg1 main_v24
  let main_c_9 : IVec S_ 1 := constantI S_ 1 1#1
  let main_v26 : IVec S_ 1 := (fun x v => Host.reduce IntOp.andi x v reducesTo_S2x1600000_S_d0_1 h_S_) main_v25 main_c_9
  let main_v27 : IVec S_ 1 := andi main_v23 main_v26
  let main_c_10 : IVec S_ 32 := constantI S_ 32 100000#32
  let main_v28 : IVec S2x1600000 32 := broadcastInDim S2x1600000 ![] bcast_S_S2x1600000 main_c_10
  let main_v29 : IVec S2x1600000 1 := cmpi .slt main_arg1 main_v28
  let main_c_11 : IVec S_ 1 := constantI S_ 1 1#1
  let main_v30 : IVec S_ 1 := (fun x v => Host.reduce IntOp.andi x v reducesTo_S2x1600000_S_d0_1 h_S_) main_v29 main_c_11
  let main_v31 : IVec S_ 1 := andi main_v27 main_v30
  main_v31

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 88
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S100000, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S_, .f32⟩
  | .hbm, ⟨21, _⟩ => ⟨S1600000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1, .i32⟩
  | .hbm, ⟨38, _⟩ => ⟨S_, .i32⟩
  | .hbm, ⟨39, _⟩ => ⟨S1600000x1, .i32⟩
  | .hbm, ⟨40, _⟩ => ⟨S1600000x1, .i1⟩
  | .hbm, ⟨41, _⟩ => ⟨S1x1, .i32⟩
  | .hbm, ⟨42, _⟩ => ⟨S1600000x1, .i32⟩
  | .hbm, ⟨43, _⟩ => ⟨S1600000x1, .i1⟩
  | .hbm, ⟨44, _⟩ => ⟨S1600000x1, .i1⟩
  | .hbm, ⟨45, _⟩ => ⟨S_, .i1⟩
  | .hbm, ⟨46, _⟩ => ⟨S1600000, .i1⟩
  | .hbm, ⟨47, _⟩ => ⟨S1600000x128, .f32⟩
  | .hbm, ⟨48, _⟩ => ⟨S1600000x128, .i1⟩
  | .hbm, ⟨49, _⟩ => ⟨S_, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x64, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1, .i32⟩
  | .hbm, ⟨68, _⟩ => ⟨S_, .i32⟩
  | .hbm, ⟨69, _⟩ => ⟨S1600000x1, .i32⟩
  | .hbm, ⟨70, _⟩ => ⟨S1600000x1, .i1⟩
  | .hbm, ⟨71, _⟩ => ⟨S1x1, .i32⟩
  | .hbm, ⟨72, _⟩ => ⟨S1600000x1, .i32⟩
  | .hbm, ⟨73, _⟩ => ⟨S1600000x1, .i1⟩
  | .hbm, ⟨74, _⟩ => ⟨S1600000x1, .i1⟩
  | .hbm, ⟨75, _⟩ => ⟨S_, .i1⟩
  | .hbm, ⟨76, _⟩ => ⟨S1600000, .i1⟩
  | .hbm, ⟨77, _⟩ => ⟨S1600000x64, .f32⟩
  | .hbm, ⟨78, _⟩ => ⟨S1600000x64, .i1⟩
  | .hbm, ⟨79, _⟩ => ⟨S_, .f32⟩
  | .hbm, ⟨80, _⟩ => ⟨S1600000x64, .f32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S1x64, .f32⟩
  | .hbm, ⟨87, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x64, .f32⟩
  | .local _ .vmem, ⟨19, _⟩ => ⟨S5000x1, .f32⟩
  | .local _ .vmem, ⟨20, _⟩ => ⟨S5000x1, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v18 : Ref sig .tc := ⟨.hbm, 51, rfl⟩
abbrev main_cst_3 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_cst : Ref sig .tc := ⟨.hbm, 79, rfl⟩
abbrev main_call1_v15 : Ref sig .tc := ⟨.hbm, 80, rfl⟩
abbrev main_v25 : Ref sig .tc := ⟨.hbm, 81, rfl⟩
abbrev main_cst_4 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v23) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v24) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v28) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v29) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v30) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x128, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S1x1600000, .i32⟩
  | 70 => ⟨S1600000, .i32⟩
  | 71 => ⟨S1x1600000, .i32⟩
  | 72 => ⟨S1600000, .i32⟩
  | 73 => ⟨S100000, .i32⟩
  | 74 => ⟨S1700000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S100000x64, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x1, .f32⟩
  | 120 => ⟨S1700000x64, .f32⟩
  | 121 => ⟨S1700000x64, .f32⟩
  | 122 => ⟨S_, .f32⟩
  | 123 => ⟨S100000x64, .f32⟩
  | 124 => ⟨S1700000x1, .i32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.GcnSpec.lean ====
/-
  The two-layer graph convolution both programs compute, as plain functions over the extended reals.

  The graph has 100000 nodes and 1600000 edges, given as two rows of node words: row 0 the sources, row 1 the
  targets. Every node also has a loop onto itself. With d(i) = 1 + #{edges into i} and s(i) = d(i)^(-1/2), one layer
  sends a feature matrix X to
      Y(i, j) = sum over the edges e into i, and the loop at i, of (X W)(src e, j) * s(src e) * s(i), plus b(j).
  One arrangement (`layer`) scales the rows of X W by s first, adds the gathered rows and the node's own row, and
  scales by s(i) once more; the other (`refLayer`) lists the loops after the edges, weights every listed edge by
  s(src) * s(dst) and sums. They agree because s(i) is a non-negative real, over which multiplication distributes
  on the extended reals, and because the degree counted over the longer list is the same number.
-/
import Idealize.ShloMosaic.PureOps.Ideal
import Idealize.ShloMosaic.Lib.ValueIdx

noncomputable section

open scoped BigOperators

namespace Gcn

open Idealize.ShloMosaic Idealize.ShloMosaic.ValueIdx

/-- The edge list: row 0 the source words, row 1 the target words. -/
abbrev Edges := IVec (⟨2, ![2, 1600000]⟩ : Shape) 32
/-- A two-axis array of extended reals. -/
abbrev Mat (r c : Nat) := (⟨2, ![r, c]⟩ : Shape).Idx → EReal
/-- A one-axis array of extended reals. -/
abbrev Vect (n : Nat) := (⟨1, ![n]⟩ : Shape).Idx → EReal

/-- Every node word names a node. -/
def InRange (E : Edges) : Prop :=
  ∀ (r : Fin 2) (k : Fin 1600000), 0 ≤ (E (ix2 r k)).toInt ∧ (E (ix2 r k)).toInt < 100000

/-- The node a word names (reduced into range, so that it is total). -/
def node (E : Edges) (r : Fin 2) (k : Fin 1600000) : Fin 100000 :=
  ⟨(E (ix2 r k)).toInt.toNat % 100000, Nat.mod_lt _ (by norm_num)⟩

theorem node_val {E : Edges} (hE : InRange E) (r : Fin 2) (k : Fin 1600000) :
    (E (ix2 r k)).toInt = ((node E r k).val : Int) := by
  obtain ⟨h0, h1⟩ := hE r k
  show _ = (((E (ix2 r k)).toInt.toNat % 100000 : Nat) : Int)
  omega

/-- The degree of node i: the edges into it, and its loop. -/
def deg (E : Edges) (i : Fin 100000) : EReal := (∑ k : Fin 1600000, if node E 1 k = i then (1 : EReal) else 0) + 1

/-- The inverse square root of the degree. -/
def dinv (E : Edges) (i : Fin 100000) : EReal := Ideal.rsqrt (deg E i)

/-- The dense product X W at (i, j). -/
def lin {D : Nat} (X : Mat 100000 128) (W : Mat 128 D) (i : Fin 100000) (j : Fin D) : EReal :=
  ∑ k : Fin 128, X (ix2 i k) * W (ix2 k j)

/-- The product's rows scaled by the inverse square root of the degree. -/
def scaled {D : Nat} (E : Edges) (X : Mat 100000 128) (W : Mat 128 D) (i : Fin 100000) (j : Fin D) : EReal :=
  lin X W i j * dinv E i

/-- The scaled rows of the sources of the edges into i, summed. -/
def agg {D : Nat} (E : Edges) (X : Mat 100000 128) (W : Mat 128 D) (i : Fin 100000) (j : Fin D) : EReal :=
  ∑ k : Fin 1600000, if node E 1 k = i then scaled E X W (node E 0 k) j else 0

/-- One layer, in the arrangement that scales before and after the gather. -/
def layer {D : Nat} (E : Edges) (X : Mat 100000 128) (W : Mat 128 D) (b : Vect D) (i : Fin 100000) (j : Fin D) : EReal :=
  dinv E i * (agg E X W i j + scaled E X W i j) + b (ix1 j)

/-- The hidden features: the first layer through max(., 0). -/
def hidden (E : Edges) (X : Mat 100000 128) (W1 : Mat 128 128) (b1 : Vect 128) : Mat 100000 128 :=
  fun idx => max (layer E X W1 b1 (idx 0) (idx 1)) 0

/-- The result, in the first arrangement. -/
def kerOut (E : Edges) (X : Mat 100000 128) (W1 : Mat 128 128) (b1 : Vect 128) (W2 : Mat 128 64) (b2 : Vect 64) :
    Mat 100000 64 :=
  fun idx => layer E (hidden E X W1 b1) W2 b2 (idx 0) (idx 1)

/-- The longer list: the 1600000 edges, then the 100000 loops. -/
def node' (E : Edges) (r : Fin 2) (k : Fin 1700000) : Fin 100000 :=
  if h : k.val < 1600000 then node E r ⟨k.val, h⟩ else ⟨k.val - 1600000, by omega⟩

/-- The degree counted over the longer list. -/
def refDeg (E : Edges) (i : Fin 100000) : EReal := ∑ k : Fin 1700000, if node' E 1 k = i then (1 : EReal) else 0

/-- Its inverse square root, guarded against a zero degree. -/
def refDinv (E : Edges) (i : Fin 100000) : EReal := if 0 < refDeg E i then Ideal.rsqrt (refDeg E i) else 0

/-- One layer, in the arrangement that weights every listed edge and sums. -/
def refLayer {D : Nat} (E : Edges) (X : Mat 100000 128) (W : Mat 128 D) (b : Vect D) (i : Fin 100000) (j : Fin D) : EReal :=
  (∑ k : Fin 1700000, if node' E 1 k = i
      then lin X W (node' E 0 k) j * (refDinv E (node' E 0 k) * refDinv E (node' E 1 k)) else 0) + b (ix1 j)

def refHidden (E : Edges) (X : Mat 100000 128) (W1 : Mat 128 128) (b1 : Vect 128) : Mat 100000 128 :=
  fun idx => max (refLayer E X W1 b1 (idx 0) (idx 1)) 0

/-- The result, in the second arrangement. -/
def refOut (E : Edges) (X : Mat 100000 128) (W1 : Mat 128 128) (b1 : Vect 128) (W2 : Mat 128 64) (b2 : Vect 64) :
    Mat 100000 64 :=
  fun idx => refLayer E (refHidden E X W1 b1) W2 b2 (idx 0) (idx 1)

/-! ### A non-negative real factor distributes over sums -/

/-- A non-negative factor other than ⊤ distributes over a finite sum. -/
theorem mul_sum_of_nonneg_of_ne_top {ι : Type} (s : Finset ι) {x : EReal} (hx : 0 ≤ x) (hx' : x ≠ ⊤)
    (f : ι → EReal) : x * ∑ k ∈ s, f k = ∑ k ∈ s, x * f k := by
  classical
  induction s using Finset.induction_on with
  | empty => simp
  | insert a s ha ih =>
    rw [Finset.sum_insert ha, Finset.sum_insert ha, EReal.left_distrib_of_nonneg_of_ne_top hx hx', ih]

/-- A sum of ones and zeros is a non-negative real. -/
theorem sum_boole_real {ι : Type} (s : Finset ι) (p : ι → Prop) [DecidablePred p] :
    ∃ c : ℝ, 0 ≤ c ∧ (∑ k ∈ s, if p k then (1 : EReal) else 0) = (c : EReal) := by
  classical
  induction s using Finset.induction_on with
  | empty => exact ⟨0, le_refl _, by simp⟩
  | insert a s ha ih =>
    obtain ⟨c, hc, h⟩ := ih
    rw [Finset.sum_insert ha, h]
    by_cases hp : p a
    · refine ⟨1 + c, by linarith, ?_⟩
      rw [if_pos hp, EReal.coe_add, EReal.coe_one]
    · refine ⟨c, hc, ?_⟩
      rw [if_neg hp, zero_add]

/-! ### The degree and its inverse square root are real -/

theorem deg_real (E : Edges) (i : Fin 100000) : ∃ c : ℝ, 0 ≤ c ∧ deg E i = ((c + 1 : ℝ) : EReal) := by
  obtain ⟨c, hc, h⟩ := sum_boole_real Finset.univ (fun k : Fin 1600000 => node E 1 k = i)
  refine ⟨c, hc, ?_⟩
  unfold deg
  rw [h, EReal.coe_add, EReal.coe_one]

theorem deg_pos (E : Edges) (i : Fin 100000) : 0 < deg E i := by
  obtain ⟨c, hc, h⟩ := deg_real E i
  rw [h]
  exact EReal.coe_pos.mpr (by linarith)

theorem dinv_real (E : Edges) (i : Fin 100000) : ∃ d : ℝ, 0 ≤ d ∧ dinv E i = (d : EReal) := by
  obtain ⟨c, hc, h⟩ := deg_real E i
  refine ⟨(Real.sqrt (c + 1))⁻¹, inv_nonneg.mpr (Real.sqrt_nonneg _), ?_⟩
  unfold dinv
  rw [h, Ideal.rsqrt_coe, if_neg (by linarith), if_neg (by linarith)]

theorem dinv_nonneg (E : Edges) (i : Fin 100000) : 0 ≤ dinv E i := by
  obtain ⟨d, hd, h⟩ := dinv_real E i
  rw [h]
  exact EReal.coe_nonneg.mpr hd

theorem dinv_ne_top (E : Edges) (i : Fin 100000) : dinv E i ≠ ⊤ := by
  obtain ⟨d, _, h⟩ := dinv_real E i
  rw [h]
  exact EReal.coe_ne_top d

/-! ### The longer list, split into the edges and the loops -/

/-- A sum over the longer list is the sum over the edges plus the sum over the loops. -/
theorem sum_split (f : Fin 1700000 → EReal) :
    ∑ k : Fin 1700000, f k
      = (∑ k : Fin 1600000, f (Fin.castAdd 100000 k)) + ∑ t : Fin 100000, f (Fin.natAdd 1600000 t) :=
  Fin.sum_univ_add (a := 1600000) (b := 100000) f

theorem node'_edge (E : Edges) (r : Fin 2) (k : Fin 1600000) :
    node' E r (Fin.castAdd 100000 k) = node E r k := by
  unfold node'
  rw [dif_pos (show (Fin.castAdd 100000 k).val < 1600000 from k.isLt)]
  rfl

theorem node'_loop (E : Edges) (r : Fin 2) (t : Fin 100000) :
    node' E r (Fin.natAdd 1600000 t) = t := by
  unfold node'
  have hv : (Fin.natAdd 1600000 t).val = 1600000 + t.val := rfl
  rw [dif_neg (by rw [hv]; omega)]
  apply Fin.ext
  show (Fin.natAdd 1600000 t).val - 1600000 = t.val
  rw [hv]; omega

theorem refDeg_eq (E : Edges) (i : Fin 100000) : refDeg E i = deg E i := by
  unfold refDeg deg
  rw [sum_split]
  simp only [node'_edge, node'_loop]
  rw [Finset.sum_ite_eq' Finset.univ i (fun _ => (1 : EReal)), if_pos (Finset.mem_univ i)]

theorem refDinv_eq (E : Edges) (i : Fin 100000) : refDinv E i = dinv E i := by
  unfold refDinv
  rw [refDeg_eq, if_pos (deg_pos E i)]
  rfl

/-- The two arrangements of one layer agree. -/
theorem refLayer_eq {D : Nat} (E : Edges) (X : Mat 100000 128) (W : Mat 128 D) (b : Vect D) (i : Fin 100000) (j : Fin D) :
    refLayer E X W b i j = layer E X W b i j := by
  have hi0 := dinv_nonneg E i
  have hi1 := dinv_ne_top E i
  unfold refLayer layer
  refine congr (congrArg HAdd.hAdd ?_) rfl
  simp only [refDinv_eq]
  rw [sum_split]
  simp only [node'_edge, node'_loop]
  rw [Finset.sum_ite_eq' Finset.univ i (fun t => lin X W t j * (dinv E t * dinv E t)),
    if_pos (Finset.mem_univ i)]
  rw [EReal.left_distrib_of_nonneg_of_ne_top hi0 hi1]
  unfold agg
  rw [mul_sum_of_nonneg_of_ne_top Finset.univ hi0 hi1]
  refine congr (congrArg HAdd.hAdd ?_) ?_
  · refine Finset.sum_congr rfl fun k _ => ?_
    by_cases h : node E 1 k = i
    · rw [if_pos h, if_pos h, h]
      unfold scaled
      exact (mul_assoc _ _ _).symm.trans (mul_comm _ _)
    · rw [if_neg h, if_neg h, mul_zero]
  · unfold scaled
    exact (mul_assoc _ _ _).symm.trans (mul_comm _ _)

/-- The two arrangements of the network agree. -/
theorem refOut_eq (E : Edges) (X : Mat 100000 128) (W1 : Mat 128 128) (b1 : Vect 128) (W2 : Mat 128 64) (b2 : Vect 64) :
    refOut E X W1 b1 W2 b2 = kerOut E X W1 b1 W2 b2 := by
  have h : refHidden E X W1 b1 = hidden E X W1 b1 :=
    funext fun idx => congrArg (max · 0) (refLayer_eq E X W1 b1 (idx 0) (idx 1))
  funext idx
  show refLayer E (refHidden E X W1 b1) W2 b2 (idx 0) (idx 1) = layer E (hidden E X W1 b1) W2 b2 (idx 0) (idx 1)
  rw [h]
  exact refLayer_eq E (hidden E X W1 b1) W2 b2 (idx 0) (idx 1)

/-! ## The same network as whole-array steps

The first arrangement computes the network in six whole-array steps: scale the rows of a product, gather and sum
the scaled rows along the edges, and finish a layer. -/

/-- The first coordinate of a two-axis index, typed as a number below the first extent. -/
abbrev fst {n0 n1 : Nat} (idx : (⟨2, ![n0, n1]⟩ : Shape).Idx) : Fin n0 := idx 0

/-- The inverse square roots of the degrees, as a column. -/
def dinvCol (E : Edges) : Mat 100000 1 := fun idx => dinv E (idx 0)

/-- A vector as a one-row matrix. -/
def rowVec {D : Nat} (b : Vect D) : Mat 1 D := fun idx => b (ix1 (idx 1))

/-- The rows of X W, each scaled by its entry of the column d. -/
def scaledBy {D : Nat} (X : Mat 100000 128) (W : Mat 128 D) (d : Mat 100000 1) : Mat 100000 D :=
  fun idx => (∑ k : Fin 128, X (ix2 (idx 0) k) * W (ix2 k (idx 1))) * d (ix2 (idx 0) (0 : Fin 1))

/-- Row i of the result is the sum of the rows g(src e) over the edges e into i. -/
def gatherSum {D : Nat} (E : Edges) (g : Mat 100000 D) : Mat 100000 D :=
  fun idx => ∑ k : Fin 1600000, if node E 1 k = fst idx then g (ix2 (node E 0 k) (idx 1)) else 0

/-- The end of a layer: d(i) (a(i, j) + g(i, j)) + b(j). -/
def finish {D : Nat} (a g : Mat 100000 D) (d : Mat 100000 1) (b : Mat 1 D) : Mat 100000 D :=
  fun idx => d (ix2 (idx 0) (0 : Fin 1)) * (a idx + g idx) + b (ix2 (0 : Fin 1) (idx 1))

/-- The same through max(., 0). -/
def finishRelu {D : Nat} (a g : Mat 100000 D) (d : Mat 100000 1) (b : Mat 1 D) : Mat 100000 D :=
  fun idx => max (finish a g d b idx) 0

/-- A product's rows scaled by the column of inverse square roots are the scaled rows. -/
theorem scaledBy_dinvCol {D : Nat} (E : Edges) (X : Mat 100000 128) (W : Mat 128 D)
    (idx : (⟨2, ![100000, D]⟩ : Shape).Idx) :
    scaledBy X W (dinvCol E) idx = scaled E X W (idx 0) (idx 1) := rfl

/-- Gathering the scaled rows along the edges is the aggregate. -/
theorem gatherSum_scaledBy {D : Nat} (E : Edges) (X : Mat 100000 128) (W : Mat 128 D)
    (idx : (⟨2, ![100000, D]⟩ : Shape).Idx) :
    gatherSum E (scaledBy X W (dinvCol E)) idx = agg E X W (idx 0) (idx 1) :=
  Finset.sum_congr rfl fun _ _ => rfl

/-- Three steps make one layer. -/
theorem finish_layer {D : Nat} (E : Edges) (X : Mat 100000 128) (W : Mat 128 D) (b : Vect D)
    (idx : (⟨2, ![100000, D]⟩ : Shape).Idx) :
    finish (gatherSum E (scaledBy X W (dinvCol E))) (scaledBy X W (dinvCol E)) (dinvCol E) (rowVec b) idx
      = layer E X W b (idx 0) (idx 1) := by
  show dinv E (idx 0) * (gatherSum E (scaledBy X W (dinvCol E)) idx + scaledBy X W (dinvCol E) idx) + b (ix1 (idx 1))
    = dinv E (idx 0) * (agg E X W (idx 0) (idx 1) + scaled E X W (idx 0) (idx 1)) + b (ix1 (idx 1))
  rw [gatherSum_scaledBy, scaledBy_dinvCol]

/-- The first three steps through max(., 0) make the hidden features. -/
theorem finishRelu_hidden (E : Edges) (X : Mat 100000 128) (W1 : Mat 128 128) (b1 : Vect 128) :
    finishRelu (gatherSum E (scaledBy X W1 (dinvCol E))) (scaledBy X W1 (dinvCol E)) (dinvCol E) (rowVec b1)
      = hidden E X W1 b1 :=
  funext fun idx => congrArg (max · 0) (finish_layer E X W1 b1 idx)

/-- The first arrangement IS the six steps. -/
theorem kerOut_steps (E : Edges) (X : Mat 100000 128) (W1 : Mat 128 128) (b1 : Vect 128) (W2 : Mat 128 64) (b2 : Vect 64) :
    finish (gatherSum E (scaledBy (finishRelu (gatherSum E (scaledBy X W1 (dinvCol E))) (scaledBy X W1 (dinvCol E)) (dinvCol E) (rowVec b1)) W2 (dinvCol E)))
      (scaledBy (finishRelu (gatherSum E (scaledBy X W1 (dinvCol E))) (scaledBy X W1 (dinvCol E)) (dinvCol E) (rowVec b1)) W2 (dinvCol E))
      (dinvCol E) (rowVec b2)
    = kerOut E X W1 b1 W2 b2 := by
  rw [finishRelu_hidden]
  funext idx
  exact finish_layer E (hidden E X W1 b1) W2 b2 idx

end Gcn

end
-- ==== Proof.KReg02.lean ====
import proofs.«410323_j14740327760488_1_alg».proof.Proof.Gen.KernelIdeal.Frame
import proofs.«410323_j14740327760488_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg02

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when a region is entered, at the ideal instance
variable (V : (c : Dev nD) → (b : Ref sig .tc) → Buf (Elt Ideal) ((c : Thread nD τ).loc b))

/-! ## Shared: the zero offsets, and a column broadcast along the rows -/

/-- The body's loads and its store sit at offsets (0, 0). -/
theorem zero_off : (![0, 0] : Fin 2 → Nat) = fun _ => 0 := funext fun a => by fin_cases a <;> rfl

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The scaled product at an index whose row is `r` and whose column is `q`. -/
theorem scaledBy_at {D : Nat} (X : Gcn.Mat 100000 128) (W : Gcn.Mat 128 D) (d : Gcn.Mat 100000 1)
    (i : (⟨2, ![100000, D]⟩ : Shape).Idx) (r : Fin 100000) (q : Fin D) (h0 : (i 0).val = r.val) (h1 : (i 1).val = q.val) :
    Gcn.scaledBy X W d i = (∑ k : Fin 128, X (ix2 r k) * W (ix2 k q)) * d (ix2 r (0 : Fin 1)) := by
  have e0 : (i 0 : Fin 100000) = r := Fin.ext h0
  have e1 : (i 1 : Fin D) = q := Fin.ext h1
  subst e0 e1
  rfl

/-! ## Region 0: x W1, each row scaled by its inverse square root -/

/-! ### The product at an index -/

theorem lhs0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product from a zero accumulator, at row `p` and column `q`: the sum over the 128 inner positions. -/
theorem prod0_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs0_0 _ _
    | ⟨1, _⟩ => exact (lhs0_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs0_0 _ _).trans hk
    | ⟨1, _⟩ => exact rhs0_1 _ _)
  rw [el, er]

/-! ### The body's result at an index -/

/-- What the body stores at `(p, q)`: row `p` of the first block times column `q` of the second, scaled by entry
    `p` of the column block. The format changes are the identity on the extended reals. -/
theorem pay0_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  refine (mulf_apply _ _ (ix2 p q)).trans ?_
  refine congr (congrArg HMul.hMul ?_) ?_
  · exact prod0_apply _ _ p q
  · refine (broadcastTo_a1_ab_apply _ _ p q).trans ?_
    exact congrFun (shapeCast_self x2 _) (ix2 p (0 : Fin 1))

/-! ### The blocks, read off the arrays -/

/-- The printed index maps over the 20 points: the row-blocked windows sit at block (t, 0), the weights at (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every block of rows is some point's. -/
theorem idx_onto0 : ∀ b : Fin 20, ∃ t : Fin cfg0.N, t.val = b.val :=
  (by decide +kernel : ∀ b : Fin 20, ∃ t : Fin grid0.N, t.val = b.val)

/-- Entry (p, k) of the feature block at point `t` is entry (5000 t + p, k) of the feature array. -/
theorem blk0_x (c : Dev nD) (t : Fin cfg0.N) (p : Fin 5000) (k : Fin 128) (r : Fin 100000)
    (hr : r.val = t.val * 5000 + p.val) :
    (iblk0 V c 0 t : Vec Ideal S5000x128 .f32) (ix2 p k) = (V c main_arg0 : Gcn.Mat 100000 128) (ix2 r k) := by
  obtain ⟨e0, e1, -⟩ := idx_facts0 t
  show (V c main_arg0 : Gcn.Mat 100000 128) (((cfg0.win 0).blk t).view.emb (ix2 p k)) = _
  refine congrArg (V c main_arg0 : Gcn.Mat 100000 128) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight block at every point is the whole weight array. -/
theorem blk0_w (c : Dev nD) (t : Fin cfg0.N) (k : Fin 128) (q : Fin 128) :
    (iblk0 V c 1 t : Vec Ideal S128x128 .f32) (ix2 k q) = (V c main_arg2 : Gcn.Mat 128 128) (ix2 k q) := by
  obtain ⟨-, -, e0, e1, -⟩ := idx_facts0 t
  show (V c main_arg2 : Gcn.Mat 128 128) (((cfg0.win 1).blk t).view.emb (ix2 k q)) = _
  refine congrArg (V c main_arg2 : Gcn.Mat 128 128) (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- Entry p of the column block at point `t` is entry 5000 t + p of the column of inverse square roots. -/
theorem blk0_d (c : Dev nD) (t : Fin cfg0.N) (p : Fin 5000) (r : Fin 100000)
    (hr : r.val = t.val * 5000 + p.val) :
    (iblk0 V c 2 t : Vec Ideal S5000x1 .f32) (ix2 p (0 : Fin 1)) = (V c main_v16 : Gcn.Mat 100000 1) (ix2 r (0 : Fin 1)) := by
  obtain ⟨-, -, -, -, e0, e1, -⟩ := idx_facts0 t
  show (V c main_v16 : Gcn.Mat 100000 1) (((cfg0.win 2).blk t).view.emb (ix2 p (0 : Fin 1))) = _
  refine congrArg (V c main_v16 : Gcn.Mat 100000 1) (funext fun a => Fin.ext ?_)
  match a with
  | ⟨0, _⟩ => show win0_2.index t (0 : Fin 2) * 5000 + 1 * p.val = r.val; rw [e0, hr]; omega
  | ⟨1, _⟩ => show win0_2.index t (1 : Fin 2) * 1 + 1 * 0 = 0; rw [e1]

/-! ### One point's result is its rows of the scaled product -/

/-- The body's result at `(p, q)` of point `t` is the scaled product of the whole arrays at the index `i` whose row is
    5000 t + p and whose column is q. -/
theorem point0 (c : Dev nD) (t : Fin cfg0.N) (p : Fin 5000) (q : Fin 128) (i : S100000x128.Idx)
    (h0 : (i 0).val = t.val * 5000 + p.val) (h1 : (i 1).val = q.val) :
    k0_pay1 (iblk0 V c 0 t) (iblk0 V c 1 t) (iblk0 V c 2 t) (ix2 p q)
      = Gcn.scaledBy (V c main_arg0) (V c main_arg2) (V c main_v16) i := by
  refine (pay0_apply (iblk0 V c 0 t) (iblk0 V c 1 t) (iblk0 V c 2 t) p q).trans ?_
  refine Eq.trans ?_ (scaledBy_at (V c main_arg0) (V c main_arg2) (V c main_v16) i (i 0) q rfl h1).symm
  refine congr (congrArg HMul.hMul (Finset.sum_congr rfl fun k _ => congr (congrArg HMul.hMul ?_) ?_)) ?_
  · exact blk0_x V c t p k (i 0) h0
  · exact blk0_w V c t k q
  · exact blk0_d V c t p (i 0) h0

/-- What point `t` writes back is block `t` of the scaled product of the arrays as the region finds them. -/
theorem flushed0_eq (c : Dev nD) (t : Fin cfg0.N) :
    (dat0 V c).flushed 3 t
      = ((cfg0.win 3).blk t).view.read (Elt Ideal) (Gcn.scaledBy (V c main_arg0) (V c main_arg2) (V c main_v16)) := by
  show (cfg0.win 3).cut (grid0.coords t) ((dat0 V c).after 3 t) = _
  rw [after0_3]
  unfold out0_3
  rw [View.canon_unit_zero zero_off]
  simp only [View.ld_unit_zero (S := S5000x128) zero_off, View.ld_unit_zero (S := S128x128) zero_off,
    View.ld_unit_zero (S := S5000x1) zero_off]
  obtain ⟨-, -, -, -, -, -, e0, e1⟩ := idx_facts0 t
  funext j
  obtain ⟨p, q, rfl⟩ : ∃ (p : Fin 5000) (q : Fin 128), j = ix2 p q := ⟨j 0, j 1, eq_ix2 j⟩
  refine point0 V c t p q (((cfg0.win 3).blk t).view.emb (ix2 p q)) ?_ ?_
  · show win0_3.index t (0 : Fin 2) * 5000 + 1 * p.val = _; rw [e0]; omega
  · show win0_3.index t (1 : Fin 2) * 128 + 1 * q.val = _; rw [e1]; omega

/-! ### The cover, and the whole array -/

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v17).slice (win0_3.rect t)).set ↔ _
  rw [View.set_slice_whole, Rect.mem_set_unit]
  exact Iff.rfl

/-- Row r of the array is in the block of point r / 5000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto0 ⟨(i 0).val / 5000, by omega⟩
  have ht' : t.val = (i 0).val / 5000 := ht
  obtain ⟨-, -, -, -, -, -, e0, e1⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; rw [e0, ht']; omega
  | ⟨1, _⟩ => show win0_3.index t (1 : Fin 2) * 128 ≤ (i 1).val ∧ (i 1).val < win0_3.index t (1 : Fin 2) * 128 + 128; rw [e1]; omega

/-- Region 0 leaves in its output array the rows of x W1 scaled by the column of inverse square roots. -/
theorem reg0_final (c : Dev nD) :
    (dat0 V c).arrAt 3 cfg0.N = Gcn.scaledBy (V c main_arg0) (V c main_arg2) (V c main_v16) :=
  (dat0 V c).arrAt_eq_of_cover 3 (Gcn.scaledBy (V c main_arg0) (V c main_arg2) (V c main_v16))
    (fun t _ => flushed0_eq V c t) cover0

/-! ## Region 2: h W2, each row scaled by its inverse square root -/

/-! ### The product at an index -/

theorem lhs2_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs2_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs2_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs2_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block product from a zero accumulator, at row `p` and column `q`: the sum over the 128 inner positions. -/
theorem prod2_apply (a : FVec Ideal S5000x128 .bf16) (b : FVec Ideal S128x64 .bf16) (p : Fin 5000) (q : Fin 64) :
    matmul dot_S5000x128_S128x64_S5000x64_1_0_0_1_n_n none a b (constant (F := Ideal) S5000x64 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs2_0 _ _
    | ⟨1, _⟩ => exact (lhs2_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs2_0 _ _).trans hk
    | ⟨1, _⟩ => exact rhs2_1 _ _)
  rw [el, er]

/-! ### The body's result at an index -/

/-- What the body stores at `(p, q)`: row `p` of the first block times column `q` of the second, scaled by entry
    `p` of the column block. The cast of the first block to its own shape and the format changes are the identity. -/
theorem pay2_apply (x0 : Vec Ideal S5000x128 .f32) (x1 : Vec Ideal S128x64 .f32) (x2 : Vec Ideal S5000x1 .f32)
    (p : Fin 5000) (q : Fin 64) :
    k2_pay1 x0 x1 x2 (ix2 p q) = (∑ k : Fin 128, x0 (ix2 p k) * x1 (ix2 k q)) * x2 (ix2 p (0 : Fin 1)) := by
  unfold k2_pay1
  refine (mulf_apply _ _ (ix2 p q)).trans ?_
  refine congr (congrArg HMul.hMul ?_) ?_
  · refine (prod2_apply _ _ p q).trans ?_
    refine Finset.sum_congr rfl fun k _ => congr (congrArg HMul.hMul ?_) rfl
    exact congrFun (shapeCast_self x0 _) (ix2 p k)
  · refine (broadcastTo_a1_ab_apply _ _ p q).trans ?_
    exact congrFun (shapeCast_self x2 _) (ix2 p (0 : Fin 1))

/-! ### The blocks, read off the arrays -/

/-- The printed index maps over the 20 points: the row-blocked windows sit at block (t, 0), the weights at (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Every block of rows is some point's. -/
theorem idx_onto2 : ∀ b : Fin 20, ∃ t : Fin cfg2.N, t.val = b.val :=
  (by decide +kernel : ∀ b : Fin 20, ∃ t : Fin grid2.N, t.val = b.val)

/-- Entry (p, k) of the hidden-feature block at point `t` is entry (5000 t + p, k) of the hidden-feature array. -/
theorem blk2_x (c : Dev nD) (t : Fin cfg2.N) (p : Fin 5000) (k : Fin 128) (r : Fin 100000)
    (hr : r.val = t.val * 5000 + p.val) :
    (iblk2 V c 0 t : Vec Ideal S5000x128 .f32) (ix2 p k) = (V c main_v23 : Gcn.Mat 100000 128) (ix2 r k) := by
  obtain ⟨e0, e1, -⟩ := idx_facts2 t
  show (V c main_v23 : Gcn.Mat 100000 128) (((cfg2.win 0).blk t).view.emb (ix2 p k)) = _
  refine congrArg (V c main_v23 : Gcn.Mat 100000 128) (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The weight block at every point is the whole weight array. -/
theorem blk2_w (c : Dev nD) (t : Fin cfg2.N) (k : Fin 128) (q : Fin 64) :
    (iblk2 V c 1 t : Vec Ideal S128x64 .f32) (ix2 k q) = (V c main_arg4 : Gcn.Mat 128 64) (ix2 k q) := by
  obtain ⟨-, -, e0, e1, -⟩ := idx_facts2 t
  show (V c main_arg4 : Gcn.Mat 128 64) (((cfg2.win 1).blk t).view.emb (ix2 k q)) = _
  refine congrArg (V c main_arg4 : Gcn.Mat 128 64) (funext fun a => Fin.ext ?_)
  match a with
  | ⟨0, _⟩ => show win2_1.index t (0 : Fin 2) * 128 + 1 * k.val = k.val; rw [e0]; omega
  | ⟨1, _⟩ => show win2_1.index t (1 : Fin 2) * 64 + 1 * q.val = q.val; rw [e1]; omega

/-- Entry p of the column block at point `t` is entry 5000 t + p of the column of inverse square roots. -/
theorem blk2_d (c : Dev nD) (t : Fin cfg2.N) (p : Fin 5000) (r : Fin 100000)
    (hr : r.val = t.val * 5000 + p.val) :
    (iblk2 V c 2 t : Vec Ideal S5000x1 .f32) (ix2 p (0 : Fin 1)) = (V c main_v16 : Gcn.Mat 100000 1) (ix2 r (0 : Fin 1)) := by
  obtain ⟨-, -, -, -, e0, e1, -⟩ := idx_facts2 t
  show (V c main_v16 : Gcn.Mat 100000 1) (((cfg2.win 2).blk t).view.emb (ix2 p (0 : Fin 1))) = _
  refine congrArg (V c main_v16 : Gcn.Mat 100000 1) (funext fun a => Fin.ext ?_)
  match a with
  | ⟨0, _⟩ => show win2_2.index t (0 : Fin 2) * 5000 + 1 * p.val = r.val; rw [e0, hr]; omega
  | ⟨1, _⟩ => show win2_2.index t (1 : Fin 2) * 1 + 1 * 0 = 0; rw [e1]

/-! ### One point's result is its rows of the scaled product -/

/-- The body's result at `(p, q)` of point `t` is the scaled product of the whole arrays at the index `i` whose row is
    5000 t + p and whose column is q. -/
theorem point2 (c : Dev nD) (t : Fin cfg2.N) (p : Fin 5000) (q : Fin 64) (i : S100000x64.Idx)
    (h0 : (i 0).val = t.val * 5000 + p.val) (h1 : (i 1).val = q.val) :
    k2_pay1 (iblk2 V c 0 t) (iblk2 V c 1 t) (iblk2 V c 2 t) (ix2 p q)
      = Gcn.scaledBy (V c main_v23) (V c main_arg4) (V c main_v16) i := by
  refine (pay2_apply (iblk2 V c 0 t) (iblk2 V c 1 t) (iblk2 V c 2 t) p q).trans ?_
  refine Eq.trans ?_ (scaledBy_at (V c main_v23) (V c main_arg4) (V c main_v16) i (i 0) q rfl h1).symm
  refine congr (congrArg HMul.hMul (Finset.sum_congr rfl fun k _ => congr (congrArg HMul.hMul ?_) ?_)) ?_
  · exact blk2_x V c t p k (i 0) h0
  · exact blk2_w V c t k q
  · exact blk2_d V c t p (i 0) h0

/-- What point `t` writes back is block `t` of the scaled product of the arrays as the region finds them. -/
theorem flushed2_eq (c : Dev nD) (t : Fin cfg2.N) :
    (dat2 V c).flushed 3 t
      = ((cfg2.win 3).blk t).view.read (Elt Ideal) (Gcn.scaledBy (V c main_v23) (V c main_arg4) (V c main_v16)) := by
  show (cfg2.win 3).cut (grid2.coords t) ((dat2 V c).after 3 t) = _
  rw [after2_3]
  unfold out2_3
  rw [View.canon_unit_zero zero_off]
  simp only [View.ld_unit_zero (S := S5000x128) zero_off, View.ld_unit_zero (S := S128x64) zero_off,
    View.ld_unit_zero (S := S5000x1) zero_off]
  obtain ⟨-, -, -, -, -, -, e0, e1⟩ := idx_facts2 t
  funext j
  obtain ⟨p, q, rfl⟩ : ∃ (p : Fin 5000) (q : Fin 64), j = ix2 p q := ⟨j 0, j 1, eq_ix2 j⟩
  refine point2 V c t p q (((cfg2.win 3).blk t).view.emb (ix2 p q)) ?_ ?_
  · show win2_3.index t (0 : Fin 2) * 5000 + 1 * p.val = _; rw [e0]; omega
  · show win2_3.index t (1 : Fin 2) * 64 + 1 * q.val = _; rw [e1]; omega

/-! ### The cover, and the whole array -/

/-- An index of the array is in point `t`'s block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v24).slice (win2_3.rect t)).set ↔ _
  rw [View.set_slice_whole, Rect.mem_set_unit]
  exact Iff.rfl

/-- Row r of the array is in the block of point r / 5000. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := idx_onto2 ⟨(i 0).val / 5000, by omega⟩
  have ht' : t.val = (i 0).val / 5000 := ht
  obtain ⟨-, -, -, -, -, -, e0, e1⟩ := idx_facts2 t
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; rw [e0, ht']; omega
  | ⟨1, _⟩ => show win2_3.index t (1 : Fin 2) * 64 ≤ (i 1).val ∧ (i 1).val < win2_3.index t (1 : Fin 2) * 64 + 64; rw [e1]; omega

/-- Region 2 leaves in its output array the rows of h W2 scaled by the column of inverse square roots. -/
theorem reg2_final (c : Dev nD) :
    (dat2 V c).arrAt 3 cfg2.N = Gcn.scaledBy (V c main_v23) (V c main_arg4) (V c main_v16) :=
  (dat2 V c).arrAt_eq_of_cover 3 (Gcn.scaledBy (V c main_v23) (V c main_arg4) (V c main_v16))
    (fun t _ => flushed2_eq V c t) cover2

end Cert.KernelIdeal.Reg02

end
-- ==== Proof.KReg13.lean ====
import proofs.«410323_j14740327760488_1_alg».proof.Proof.Gen.KernelIdeal.Frame
import proofs.«410323_j14740327760488_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg13

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when a region is entered, at the ideal instance
variable (V : (c : Dev nD) → (b : Ref sig .tc) → Buf (Elt Ideal) ((c : Thread nD τ).loc b))

/-- The offsets of an access to a whole buffer are zero on both axes. -/
theorem off_zero : (![0, 0] : Fin 2 → Nat) = fun _ => 0 := funext fun a => by fin_cases a <;> rfl

/-! ## Broadcasts of a column and of a row, read at an index -/

/-- A column [5000,1] broadcast along the lanes reads its row's entry. -/
theorem bcastCol128 (x : Vec Ideal S5000x1 .f32) (h : S5000x1.Broadcasts S5000x128) (p : Fin 5000) (q : Fin 128) :
    broadcastTo S5000x128 x h (ix2 p q) = x (ix2 p (0 : Fin 1)) :=
  broadcastTo_apply x h (ix2 p q) (ix2 p (0 : Fin 1)) fun a => by
    match a with
    | ⟨0, _⟩ => rfl
    | ⟨1, _⟩ => rfl

/-- A row [1,128] broadcast along the rows reads its lane's entry. -/
theorem bcastRow128 (x : Vec Ideal S1x128 .f32) (h : S1x128.Broadcasts S5000x128) (p : Fin 5000) (q : Fin 128) :
    broadcastTo S5000x128 x h (ix2 p q) = x (ix2 (0 : Fin 1) q) :=
  broadcastTo_apply x h (ix2 p q) (ix2 (0 : Fin 1) q) fun a => by
    match a with
    | ⟨0, _⟩ => rfl
    | ⟨1, _⟩ => rfl

/-! ## Region 1: the body's value at an index -/

/-- The body of region 1 at row p, lane q: max(d(p) (a(p,q) + g(p,q)) + b(q), 0). -/
theorem pay1_apply (x0 x1 : Vec Ideal S5000x128 .f32) (x2 : Vec Ideal S5000x1 .f32) (x3 : Vec Ideal S1x128 .f32)
    (p : Fin 5000) (q : Fin 128) :
    k1_pay1 x0 x1 x2 x3 (ix2 p q)
      = max (x2 (ix2 p (0 : Fin 1)) * (x0 (ix2 p q) + x1 (ix2 p q)) + x3 (ix2 (0 : Fin 1) q)) 0 := by
  unfold k1_pay1
  simp only [shapeCast_self]
  rw [maximumf_apply, addf_apply, mulf_apply, addf_apply, broadcast_apply, bcastCol128, bcastRow128]
  exact congrArg _ Ideal.ofBits_zero_f32

/-! ## Region 1: blocks to the array -/

/-- The index maps over the 20 points: every row-blocked window is at block (t, 0) at point t, the bias window at (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every row block of the output is some point's. -/
theorem onto1 : ∀ q0 : Fin 20, ∃ t : Fin cfg1.N, win1_4.index t = ![q0.val, 0] :=
  (by decide +kernel : ∀ q0 : Fin 20, ∃ t : Fin grid1.N, win1_4.index t = ![q0.val, 0])

/-- Row p of the block at point t is row 5000 t + p of the array. -/
def row1 (t : Fin cfg1.N) (p : Fin 5000) : Fin 100000 :=
  ⟨t.val * 5000 + p.val, by have ht : t.val < 20 := t.isLt; have hp := p.isLt; omega⟩

/-- The aggregated rows' block at point t, read at (p, q). -/
theorem blk1_0 (c : Dev nD) (t : Fin cfg1.N) (p : Fin 5000) (q : Fin 128) :
    iblk1 V c 0 t (ix2 p q) = V c main_v21 (ix2 (row1 t p) q) := by
  obtain ⟨e00, e01, -⟩ := idx1 t
  show V c main_v21 (((cfg1.win 0).blk t).view.emb (ix2 p q)) = V c main_v21 (ix2 (row1 t p) q)
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * q.val = q.val; omega

/-- The scaled rows' block at point t, read at (p, q). -/
theorem blk1_1 (c : Dev nD) (t : Fin cfg1.N) (p : Fin 5000) (q : Fin 128) :
    iblk1 V c 1 t (ix2 p q) = V c main_v17 (ix2 (row1 t p) q) := by
  obtain ⟨-, -, e10, e11, -⟩ := idx1 t
  show V c main_v17 (((cfg1.win 1).blk t).view.emb (ix2 p q)) = V c main_v17 (ix2 (row1 t p) q)
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * q.val = q.val; omega

/-- The column's block at point t, read at row p. -/
theorem blk1_2 (c : Dev nD) (t : Fin cfg1.N) (p : Fin 5000) :
    iblk1 V c 2 t (ix2 p (0 : Fin 1)) = V c main_v16 (ix2 (row1 t p) (0 : Fin 1)) := by
  obtain ⟨-, -, -, -, e20, e21, -⟩ := idx1 t
  show V c main_v16 (((cfg1.win 2).blk t).view.emb (ix2 p (0 : Fin 1))) = V c main_v16 (ix2 (row1 t p) (0 : Fin 1))
  refine congrArg _ (funext fun a => Fin.ext ?_)
  match a with
  | ⟨0, _⟩ => show win1_2.index t (0 : Fin 2) * 5000 + 1 * p.val = t.val * 5000 + p.val; omega
  | ⟨1, _⟩ => show win1_2.index t (1 : Fin 2) * 1 + 1 * 0 = 0; omega

/-- The bias row is one block, the same at every point. -/
theorem blk1_3 (c : Dev nD) (t : Fin cfg1.N) (q : Fin 128) :
    iblk1 V c 3 t (ix2 (0 : Fin 1) q) = V c main_v22 (ix2 (0 : Fin 1) q) := by
  obtain ⟨-, -, -, -, -, -, e30, e31, -⟩ := idx1 t
  show V c main_v22 (((cfg1.win 3).blk t).view.emb (ix2 (0 : Fin 1) q)) = V c main_v22 (ix2 (0 : Fin 1) q)
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- Where the output's block at point t puts its entry (p, q). -/
theorem emb1_4 (t : Fin cfg1.N) (p : Fin 5000) (q : Fin 128) :
    ((cfg1.win 4).blk t).view.emb (ix2 p q) = ix2 (row1 t p) q := by
  obtain ⟨-, -, -, -, -, -, -, -, e40, e41⟩ := idx1 t
  refine funext fun a => Fin.ext ?_
  match a with
  | ⟨0, _⟩ => show win1_4.index t (0 : Fin 2) * 5000 + 1 * p.val = t.val * 5000 + p.val; omega
  | ⟨1, _⟩ => show win1_4.index t (1 : Fin 2) * 128 + 1 * q.val = q.val; omega

/-- What point t writes back is block t of max(d (agg + g) + b, 0) of the arrays the region finds. -/
theorem reg1_flushed (c : Dev nD) (t : Fin cfg1.N) :
    (dat1 V c).flushed 4 t = ((cfg1.win 4).blk t).view.read (Elt Ideal)
      (Gcn.finishRelu (V c main_v21) (V c main_v17) (V c main_v16) (V c main_v22)) := by
  show (cfg1.win 4).cut (grid1.coords t) ((dat1 V c).after 4 t) = _
  rw [after1_4]
  unfold out1_4
  rw [View.canon_unit_zero off_zero]
  simp only [View.ld_unit_zero (S := S5000x128) off_zero, View.ld_unit_zero (S := S5000x1) off_zero,
    View.ld_unit_zero (S := S1x128) off_zero]
  funext j
  obtain ⟨p, q, rfl⟩ : ∃ (p : Fin 5000) (q : Fin 128), j = ix2 p q := ⟨j 0, j 1, eq_ix2 j⟩
  refine (pay1_apply _ _ _ _ p q).trans ?_
  rw [blk1_0, blk1_1, blk1_2, blk1_3]
  show _ = Gcn.finishRelu (V c main_v21) (V c main_v17) (V c main_v16) (V c main_v22)
    (((cfg1.win 4).blk t).view.emb (ix2 p q))
  rw [emb1_4]
  rfl

/-- An index of the array is in point t's block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v23).slice (win1_4.rect t)).set ↔ _
  rw [View.set_slice_whole, Rect.mem_set_unit]
  exact Iff.rfl

/-- Row r of the output is written back at point r / 5000: the 20 row blocks fill the array. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- Region 1 leaves in its output array max(d (agg + g) + b, 0). -/
theorem reg1_final (c : Dev nD) :
    (dat1 V c).arrAt 4 cfg1.N = Gcn.finishRelu (V c main_v21) (V c main_v17) (V c main_v16) (V c main_v22) :=
  (dat1 V c).arrAt_eq_of_cover 4 _ (fun t _ => reg1_flushed V c t) cover1

/-! ## Region 3: the same with 64 lanes and no maximum -/

/-- A column [5000,1] broadcast along 64 lanes reads its row's entry. -/
theorem bcastCol64 (x : Vec Ideal S5000x1 .f32) (h : S5000x1.Broadcasts S5000x64) (p : Fin 5000) (q : Fin 64) :
    broadcastTo S5000x64 x h (ix2 p q) = x (ix2 p (0 : Fin 1)) :=
  broadcastTo_apply x h (ix2 p q) (ix2 p (0 : Fin 1)) fun a => by
    match a with
    | ⟨0, _⟩ => rfl
    | ⟨1, _⟩ => rfl

/-- A row [1,64] broadcast along the rows reads its lane's entry. -/
theorem bcastRow64 (x : Vec Ideal S1x64 .f32) (h : S1x64.Broadcasts S5000x64) (p : Fin 5000) (q : Fin 64) :
    broadcastTo S5000x64 x h (ix2 p q) = x (ix2 (0 : Fin 1) q) :=
  broadcastTo_apply x h (ix2 p q) (ix2 (0 : Fin 1) q) fun a => by
    match a with
    | ⟨0, _⟩ => rfl
    | ⟨1, _⟩ => rfl

/-- The body of region 3 at row p, lane q: d(p) (a(p,q) + g(p,q)) + b(q). -/
theorem pay3_apply (x0 x1 : Vec Ideal S5000x64 .f32) (x2 : Vec Ideal S5000x1 .f32) (x3 : Vec Ideal S1x64 .f32)
    (p : Fin 5000) (q : Fin 64) :
    k3_pay1 x0 x1 x2 x3 (ix2 p q)
      = x2 (ix2 p (0 : Fin 1)) * (x0 (ix2 p q) + x1 (ix2 p q)) + x3 (ix2 (0 : Fin 1) q) := by
  unfold k3_pay1
  simp only [shapeCast_self]
  rw [addf_apply, mulf_apply, addf_apply, bcastCol64, bcastRow64]

/-- The index maps over the 20 points: every row-blocked window is at block (t, 0) at point t, the bias window at (0, 0). -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Every row block of the output is some point's. -/
theorem onto3 : ∀ q0 : Fin 20, ∃ t : Fin cfg3.N, win3_4.index t = ![q0.val, 0] :=
  (by decide +kernel : ∀ q0 : Fin 20, ∃ t : Fin grid3.N, win3_4.index t = ![q0.val, 0])

/-- Row p of the block at point t is row 5000 t + p of the array. -/
def row3 (t : Fin cfg3.N) (p : Fin 5000) : Fin 100000 :=
  ⟨t.val * 5000 + p.val, by have ht : t.val < 20 := t.isLt; have hp := p.isLt; omega⟩

/-- The aggregated rows' block at point t, read at (p, q). -/
theorem blk3_0 (c : Dev nD) (t : Fin cfg3.N) (p : Fin 5000) (q : Fin 64) :
    iblk3 V c 0 t (ix2 p q) = V c main_v28 (ix2 (row3 t p) q) := by
  obtain ⟨e00, e01, -⟩ := idx3 t
  show V c main_v28 (((cfg3.win 0).blk t).view.emb (ix2 p q)) = V c main_v28 (ix2 (row3 t p) q)
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 64 + 1 * q.val = q.val; omega

/-- The scaled rows' block at point t, read at (p, q). -/
theorem blk3_1 (c : Dev nD) (t : Fin cfg3.N) (p : Fin 5000) (q : Fin 64) :
    iblk3 V c 1 t (ix2 p q) = V c main_v24 (ix2 (row3 t p) q) := by
  obtain ⟨-, -, e10, e11, -⟩ := idx3 t
  show V c main_v24 (((cfg3.win 1).blk t).view.emb (ix2 p q)) = V c main_v24 (ix2 (row3 t p) q)
  refine congrArg _ (funext fun a => Fin.ext ?_)
  match a with
  | ⟨0, _⟩ => show win3_1.index t (0 : Fin 2) * 5000 + 1 * p.val = t.val * 5000 + p.val; omega
  | ⟨1, _⟩ => show win3_1.index t (1 : Fin 2) * 64 + 1 * q.val = q.val; omega

/-- The column's block at point t, read at row p. -/
theorem blk3_2 (c : Dev nD) (t : Fin cfg3.N) (p : Fin 5000) :
    iblk3 V c 2 t (ix2 p (0 : Fin 1)) = V c main_v16 (ix2 (row3 t p) (0 : Fin 1)) := by
  obtain ⟨-, -, -, -, e20, e21, -⟩ := idx3 t
  show V c main_v16 (((cfg3.win 2).blk t).view.emb (ix2 p (0 : Fin 1))) = V c main_v16 (ix2 (row3 t p) (0 : Fin 1))
  refine congrArg _ (funext fun a => Fin.ext ?_)
  match a with
  | ⟨0, _⟩ => show win3_2.index t (0 : Fin 2) * 5000 + 1 * p.val = t.val * 5000 + p.val; omega
  | ⟨1, _⟩ => show win3_2.index t (1 : Fin 2) * 1 + 1 * 0 = 0; omega

/-- The bias row is one block, the same at every point. -/
theorem blk3_3 (c : Dev nD) (t : Fin cfg3.N) (q : Fin 64) :
    iblk3 V c 3 t (ix2 (0 : Fin 1) q) = V c main_v29 (ix2 (0 : Fin 1) q) := by
  obtain ⟨-, -, -, -, -, -, e30, e31, -⟩ := idx3 t
  show V c main_v29 (((cfg3.win 3).blk t).view.emb (ix2 (0 : Fin 1) q)) = V c main_v29 (ix2 (0 : Fin 1) q)
  refine congrArg _ (funext fun a => Fin.ext ?_)
  match a with
  | ⟨0, _⟩ => show win3_3.index t (0 : Fin 2) * 1 + 1 * 0 = 0; omega
  | ⟨1, _⟩ => show win3_3.index t (1 : Fin 2) * 64 + 1 * q.val = q.val; omega

/-- Where the output's block at point t puts its entry (p, q). -/
theorem emb3_4 (t : Fin cfg3.N) (p : Fin 5000) (q : Fin 64) :
    ((cfg3.win 4).blk t).view.emb (ix2 p q) = ix2 (row3 t p) q := by
  obtain ⟨-, -, -, -, -, -, -, -, e40, e41⟩ := idx3 t
  refine funext fun a => Fin.ext ?_
  match a with
  | ⟨0, _⟩ => show win3_4.index t (0 : Fin 2) * 5000 + 1 * p.val = t.val * 5000 + p.val; omega
  | ⟨1, _⟩ => show win3_4.index t (1 : Fin 2) * 64 + 1 * q.val = q.val; omega

/-- What point t writes back is block t of d (agg + g) + b of the arrays the region finds. -/
theorem reg3_flushed (c : Dev nD) (t : Fin cfg3.N) :
    (dat3 V c).flushed 4 t = ((cfg3.win 4).blk t).view.read (Elt Ideal)
      (Gcn.finish (V c main_v28) (V c main_v24) (V c main_v16) (V c main_v29)) := by
  show (cfg3.win 4).cut (grid3.coords t) ((dat3 V c).after 4 t) = _
  rw [after3_4]
  unfold out3_4
  rw [View.canon_unit_zero off_zero]
  simp only [View.ld_unit_zero (S := S5000x64) off_zero, View.ld_unit_zero (S := S5000x1) off_zero,
    View.ld_unit_zero (S := S1x64) off_zero]
  funext j
  obtain ⟨p, q, rfl⟩ : ∃ (p : Fin 5000) (q : Fin 64), j = ix2 p q := ⟨j 0, j 1, eq_ix2 j⟩
  refine (pay3_apply _ _ _ _ p q).trans ?_
  rw [blk3_0, blk3_1, blk3_2, blk3_3]
  show _ = Gcn.finish (V c main_v28) (V c main_v24) (V c main_v16) (V c main_v29)
    (((cfg3.win 4).blk t).view.emb (ix2 p q))
  rw [emb3_4]
  rfl

/-- An index of the array is in point t's block iff each coordinate is in the block's range on its axis. -/
theorem mem_blk3 (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v30).slice (win3_4.rect t)).set ↔ _
  rw [View.set_slice_whole, Rect.mem_set_unit]
  exact Iff.rfl

/-- Row r of the output is written back at point r / 5000: the 20 row blocks fill the array. -/
theorem cover3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ := onto3 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk3]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 64 ≤ (i 1).val ∧ (i 1).val < win3_4.index t (1 : Fin 2) * 64 + 64
    omega

/-- Region 3 leaves in its output array d (agg + g) + b. -/
theorem reg3_final (c : Dev nD) :
    (dat3 V c).arrAt 4 cfg3.N = Gcn.finish (V c main_v28) (V c main_v24) (V c main_v16) (V c main_v29) :=
  (dat3 V c).arrAt_eq_of_cover 4 _ (fun t _ => reg3_flushed V c t) cover3

end Cert.KernelIdeal.Reg13

end
-- ==== Proof.KHostT.lean ====
import proofs.«410323_j14740327760488_1_alg».proof.Proof.Gen.KernelIdeal.Frame
import proofs.«410323_j14740327760488_1_alg».proof.Proof.GcnSpec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HostT

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- A buffer that no operation of a stretch writes holds after the stretch what it held before it: every entry of
    the stretch writes one buffer, and each of those is a reference other than the given one. -/
local macro "keeps " ops:ident b:ident : term =>
  `(StableHlo.after_of_forall_not_mem (b := Proc.devRef .tc $b) _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-- After the five operations that end at region 1's entry, the buffer of the first bias's one-row matrix holds
    the reshape of the bias argument's buffer: entry (0, i) is entry i. -/
theorem hostOps1_1_v22 (V : Valuation τ sig (Elt Ideal)) (u : Fin 1) (i : Fin 128) :
    StableHlo.after hostOps1_1 V (Proc.devRef .tc main_v22) (ix2 u i) = V (Proc.devRef .tc main_arg3) (ix1 i) := by
  after_results
  exact shapeCast_a_1a_apply (a := 128) (V (Proc.devRef .tc main_arg3)) shapeCasts_S128_S1x128 u i

/-- The same for the second bias, after the five operations that end at region 3's entry. -/
theorem hostOps3_1_v29 (V : Valuation τ sig (Elt Ideal)) (u : Fin 1) (i : Fin 64) :
    StableHlo.after hostOps3_1 V (Proc.devRef .tc main_v29) (ix2 u i) = V (Proc.devRef .tc main_arg5) (ix1 i) := by
  after_results
  exact shapeCast_a_1a_apply (a := 64) (V (Proc.devRef .tc main_arg5)) shapeCasts_S64_S1x64 u i

/-! The buffers a region reads that no operation between wrote: each is what an earlier boundary held. -/

theorem V1_arg0 (c : Dev nD) : V1 m ρ c main_arg0 = m ((c : Thread nD τ).loc main_arg0) :=
  calc V1 m ρ c main_arg0
    _ = W0 m ρ c (Proc.devRef .tc main_arg0) := keeps hostOps0 main_arg0
    _ = m ((c : Thread nD τ).loc main_arg0) := rfl
theorem V1_arg2 (c : Dev nD) : V1 m ρ c main_arg2 = m ((c : Thread nD τ).loc main_arg2) :=
  calc V1 m ρ c main_arg2
    _ = W0 m ρ c (Proc.devRef .tc main_arg2) := keeps hostOps0 main_arg2
    _ = m ((c : Thread nD τ).loc main_arg2) := rfl

/-- Region 0's output array at its exit is what its write-backs leave. -/
theorem V2_v17 (c : Dev nD) : V2 m ρ c main_v17 = (dat0 (V1 m ρ) c).arrAt 3 cfg0.N :=
  W2_arr m ρ c 3

theorem V4_v17 (c : Dev nD) : V4 m ρ c main_v17 = V2 m ρ c main_v17 :=
  calc V4 m ρ c main_v17
    _ = W3 m ρ c (Proc.devRef .tc main_v17) := keeps hostOps1_1 main_v17
    _ = W2 m ρ c (Proc.devRef .tc main_v17) := keeps hostOps1 main_v17
theorem V4_v16 (c : Dev nD) : V4 m ρ c main_v16 = V1 m ρ c main_v16 :=
  calc V4 m ρ c main_v16
    _ = W3 m ρ c (Proc.devRef .tc main_v16) := keeps hostOps1_1 main_v16
    _ = W2 m ρ c (Proc.devRef .tc main_v16) := keeps hostOps1 main_v16
    _ = W1 m ρ c (Proc.devRef .tc main_v16) :=
        (W2_arr m ρ c 2).trans (((dat0 (V1 m ρ) c).arrAt_in 2 rfl _).trans (A_eq0 (V1 m ρ) c 2))
/-- The first bias as a one-row matrix (a reshape of the argument). -/
theorem V4_v22 (c : Dev nD) : V4 m ρ c main_v22 = Gcn.rowVec (m ((c : Thread nD τ).loc main_arg3)) := by
  -- no operation before region 1 and no array of region 0 is the bias argument's buffer
  have h3 : W3 m ρ c (Proc.devRef .tc main_arg3) = m ((c : Thread nD τ).loc main_arg3) :=
    calc W3 m ρ c (Proc.devRef .tc main_arg3)
      _ = W2 m ρ c (Proc.devRef .tc main_arg3) := keeps hostOps1 main_arg3
      _ = W1 m ρ c (Proc.devRef .tc main_arg3) := W2_of_ne m ρ c main_arg3 (by decide)
      _ = W0 m ρ c (Proc.devRef .tc main_arg3) := keeps hostOps0 main_arg3
      _ = m ((c : Thread nD τ).loc main_arg3) := rfl
  funext idx
  obtain ⟨u, i, rfl⟩ : ∃ (u : Fin 1) (i : Fin 128), idx = ix2 u i := ⟨idx 0, idx 1, eq_ix2 idx⟩
  calc V4 m ρ c main_v22 (ix2 u i)
    _ = W3 m ρ c (Proc.devRef .tc main_arg3) (ix1 i) := hostOps1_1_v22 (W3 m ρ c) u i
    _ = m ((c : Thread nD τ).loc main_arg3) (ix1 i) := congrFun h3 (ix1 i)
    _ = Gcn.rowVec (m ((c : Thread nD τ).loc main_arg3)) (ix2 u i) := rfl

theorem V5_v23 (c : Dev nD) : V5 m ρ c main_v23 = (dat1 (V4 m ρ) c).arrAt 4 cfg1.N :=
  W5_arr m ρ c 4
theorem V5_arg4 (c : Dev nD) : V5 m ρ c main_arg4 = m ((c : Thread nD τ).loc main_arg4) :=
  calc V5 m ρ c main_arg4
    _ = W4 m ρ c (Proc.devRef .tc main_arg4) := W5_of_ne m ρ c main_arg4 (by decide)
    _ = W3 m ρ c (Proc.devRef .tc main_arg4) := keeps hostOps1_1 main_arg4
    _ = W2 m ρ c (Proc.devRef .tc main_arg4) := keeps hostOps1 main_arg4
    _ = W1 m ρ c (Proc.devRef .tc main_arg4) := W2_of_ne m ρ c main_arg4 (by decide)
    _ = W0 m ρ c (Proc.devRef .tc main_arg4) := keeps hostOps0 main_arg4
    _ = m ((c : Thread nD τ).loc main_arg4) := rfl
theorem V5_v16 (c : Dev nD) : V5 m ρ c main_v16 = V1 m ρ c main_v16 :=
  calc V5 m ρ c main_v16
    _ = V4 m ρ c main_v16 :=
        (W5_arr m ρ c 2).trans (((dat1 (V4 m ρ) c).arrAt_in 2 rfl _).trans (A_eq1 (V4 m ρ) c 2))
    _ = V1 m ρ c main_v16 := V4_v16 m ρ c

theorem V6_v24 (c : Dev nD) : V6 m ρ c main_v24 = (dat2 (V5 m ρ) c).arrAt 3 cfg2.N :=
  W6_arr m ρ c 3

theorem V8_v24 (c : Dev nD) : V8 m ρ c main_v24 = V6 m ρ c main_v24 :=
  calc V8 m ρ c main_v24
    _ = W7 m ρ c (Proc.devRef .tc main_v24) := keeps hostOps3_1 main_v24
    _ = W6 m ρ c (Proc.devRef .tc main_v24) := keeps hostOps3 main_v24
theorem V8_v16 (c : Dev nD) : V8 m ρ c main_v16 = V1 m ρ c main_v16 :=
  calc V8 m ρ c main_v16
    _ = W7 m ρ c (Proc.devRef .tc main_v16) := keeps hostOps3_1 main_v16
    _ = W6 m ρ c (Proc.devRef .tc main_v16) := keeps hostOps3 main_v16
    _ = V5 m ρ c main_v16 :=
        (W6_arr m ρ c 2).trans (((dat2 (V5 m ρ) c).arrAt_in 2 rfl _).trans (A_eq2 (V5 m ρ) c 2))
    _ = V1 m ρ c main_v16 := V5_v16 m ρ c
/-- The second bias as a one-row matrix. -/
theorem V8_v29 (c : Dev nD) : V8 m ρ c main_v29 = Gcn.rowVec (m ((c : Thread nD τ).loc main_arg5)) := by
  -- no operation before region 3 and no array of regions 0, 1, 2 is the bias argument's buffer
  have h7 : W7 m ρ c (Proc.devRef .tc main_arg5) = m ((c : Thread nD τ).loc main_arg5) :=
    calc W7 m ρ c (Proc.devRef .tc main_arg5)
      _ = W6 m ρ c (Proc.devRef .tc main_arg5) := keeps hostOps3 main_arg5
      _ = W5 m ρ c (Proc.devRef .tc main_arg5) := W6_of_ne m ρ c main_arg5 (by decide)
      _ = W4 m ρ c (Proc.devRef .tc main_arg5) := W5_of_ne m ρ c main_arg5 (by decide)
      _ = W3 m ρ c (Proc.devRef .tc main_arg5) := keeps hostOps1_1 main_arg5
      _ = W2 m ρ c (Proc.devRef .tc main_arg5) := keeps hostOps1 main_arg5
      _ = W1 m ρ c (Proc.devRef .tc main_arg5) := W2_of_ne m ρ c main_arg5 (by decide)
      _ = W0 m ρ c (Proc.devRef .tc main_arg5) := keeps hostOps0 main_arg5
      _ = m ((c : Thread nD τ).loc main_arg5) := rfl
  funext idx
  obtain ⟨u, i, rfl⟩ : ∃ (u : Fin 1) (i : Fin 64), idx = ix2 u i := ⟨idx 0, idx 1, eq_ix2 idx⟩
  calc V8 m ρ c main_v29 (ix2 u i)
    _ = W7 m ρ c (Proc.devRef .tc main_arg5) (ix1 i) := hostOps3_1_v29 (W7 m ρ c) u i
    _ = m ((c : Thread nD τ).loc main_arg5) (ix1 i) := congrFun h7 (ix1 i)
    _ = Gcn.rowVec (m ((c : Thread nD τ).loc main_arg5)) (ix2 u i) := rfl

/-- The result array at the last boundary is what region 3's write-backs leave. -/
theorem W9_v30 (c : Dev nD) : W9 m ρ c (Proc.devRef .tc main_v30) = (dat3 (V8 m ρ) c).arrAt 4 cfg3.N :=
  W9_arr m ρ c 4

end Cert.KernelIdeal.HostT

end
-- ==== Proof.LibScatterAddRows.lean ====
/-
  An accumulating float scatter of N whole rows into a two-axis table of K rows, read at an element, over the
  extended reals.

  `x.at[idx].add(upd)` of a table `x : [K, B]` with one row index per update (`idx : [N, 1]`, `upd : [N, B]`; also what
  `jax.ops.segment_sum` of a two-axis array lowers to) prints as a scatter whose first operand axis is inserted and
  indexed by the start index, and whose second operand axis is the update's one window axis. At the ideal instance
  the result at `(b, c)` is the operand's element plus the sum over the updates `i` whose index word, read as a signed
  integer, is `b`, of the update's element `(i, c)`; an update whose index is negative or at least K lands nowhere.

  The steps, each a lemma of its own. On the first operand axis the start of update element `(i, c')` is the signed
  index word of row `i` (`rowsDims_start0`) and the window coordinate is 0, the axis being inserted
  (`rowsDims_window0`); on the second axis the start is 0, the start index naming the first axis only
  (`rowsDims_start1`), and the window coordinate is `c'` (`rowsDims_window1`). So update element `(i, c')` lands on
  `(b, c)` exactly when the signed word of row `i` equals `b` and `c' = c` (`rowsDims_resultIdx?_eq_some_iff`). The sum
  over the update elements landing on `(b, c)`, written as a double sum over the coordinates (`sum_idx2`), then keeps
  one term of the inner sum, and what is left is a sum over the rows `i` alone.
-/
import Idealize.ShloMosaic.PureOps.Ideal
import Idealize.ShloMosaic.Lib.ValueIdx

noncomputable section

open scoped BigOperators

namespace Idealize.ShloMosaic.ScatterAddRows

open Idealize.ShloMosaic Idealize.ShloMosaic.ValueIdx

/-- The dimension numbers of a scatter of N rows into a table of K rows: operand `[K, B]`, indices `[N, 1]`,
    updates `[N, B]`. -/
abbrev rowsDims (K B N : Nat)
    (wf : ScatterDims.WF ⟨2, ![K, B]⟩ ⟨2, ![N, 1]⟩ ⟨2, ![N, B]⟩ [1] [0] [0] 1) :
    ScatterDims ⟨2, ![K, B]⟩ ⟨2, ![N, 1]⟩ ⟨2, ![N, B]⟩ where
  updateWindowDims := [1]
  insertedWindowDims := [0]
  scatterDimsToOperandDims := [0]
  indexVectorDim := 1
  wf := wf

/-- A property of the two axes holds of every axis once it holds of each. -/
theorem forall_axis2 {P : Fin 2 → Prop} (h0 : P 0) (h1 : P 1) : ∀ a, P a := by
  intro a
  match a with
  | ⟨0, _⟩ => exact h0
  | ⟨1, _⟩ => exact h1

/-- Two two-axis indices with the same two coordinates are equal. -/
theorem idx2_ext {n0 n1 : Nat} {f g : (⟨2, ![n0, n1]⟩ : Shape).Idx}
    (h0 : f 0 = g 0) (h1 : f 1 = g 1) : f = g := by
  rw [eq_ix2 f, eq_ix2 g, h0, h1]

/-- The operand's one axis that is not inserted is the second. -/
theorem rowsDims_sKept {K B N : Nat}
    (wf : ScatterDims.WF ⟨2, ![K, B]⟩ ⟨2, ![N, 1]⟩ ⟨2, ![N, B]⟩ [1] [0] [0] 1) :
    (rowsDims K B N wf).sKept = [1] := rfl

/-- The start of an update element on the first operand axis is the index word of its row, read as a signed integer:
    the start index's only component sits at `[j 0, 0]` of the scatter indices. -/
theorem rowsDims_start0 {K B N w : Nat}
    (wf : ScatterDims.WF ⟨2, ![K, B]⟩ ⟨2, ![N, 1]⟩ ⟨2, ![N, B]⟩ [1] [0] [0] 1)
    (idx : IVec ⟨2, ![N, 1]⟩ w) (j : (⟨2, ![N, B]⟩ : Shape).Idx) :
    (rowsDims K B N wf).start j idx 0 = (idx (ix2 (j 0) (0 : Fin 1))).toInt := by
  unfold ScatterDims.start
  rw [dif_pos (show (0 : Fin 2) ∈ (rowsDims K B N wf).scatterDimsToOperandDims from List.mem_singleton.mpr rfl)]
  have hsi : (rowsDims K B N wf).siIdx j ⟨List.idxOf (0 : Fin 2) (rowsDims K B N wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- The start index names the first operand axis only, so on the second axis every start is `0`. -/
theorem rowsDims_start1 {K B N w : Nat}
    (wf : ScatterDims.WF ⟨2, ![K, B]⟩ ⟨2, ![N, 1]⟩ ⟨2, ![N, B]⟩ [1] [0] [0] 1)
    (idx : IVec ⟨2, ![N, 1]⟩ w) (j : (⟨2, ![N, B]⟩ : Shape).Idx) :
    (rowsDims K B N wf).start j idx 1 = 0 := by
  unfold ScatterDims.start
  rw [dif_neg (show ¬ (1 : Fin 2) ∈ (rowsDims K B N wf).scatterDimsToOperandDims from
    fun h => absurd (List.mem_singleton.mp h) (by decide : ¬ (1 : Fin 2) = 0))]

/-- The first operand axis is an inserted window axis, so every update element's window coordinate on it is `0`. -/
theorem rowsDims_window0 {K B N : Nat}
    (wf : ScatterDims.WF ⟨2, ![K, B]⟩ ⟨2, ![N, 1]⟩ ⟨2, ![N, B]⟩ [1] [0] [0] 1)
    (j : (⟨2, ![N, B]⟩ : Shape).Idx) : (rowsDims K B N wf).window j 0 = 0 := by
  unfold ScatterDims.window
  rw [dif_neg]
  rw [rowsDims_sKept]
  exact (by decide : ¬ (0 : Fin 2) ∈ [1])

/-- The second operand axis is the one kept axis, so the window coordinate on it is the update element's coordinate
    on its one window axis, the second. -/
theorem rowsDims_window1 {K B N : Nat}
    (wf : ScatterDims.WF ⟨2, ![K, B]⟩ ⟨2, ![N, 1]⟩ ⟨2, ![N, B]⟩ [1] [0] [0] 1)
    (j : (⟨2, ![N, B]⟩ : Shape).Idx) : (rowsDims K B N wf).window j 1 = (j 1).val := by
  unfold ScatterDims.window
  rw [dif_pos (show (1 : Fin 2) ∈ (rowsDims K B N wf).sKept by
    rw [rowsDims_sKept]; exact (by decide : (1 : Fin 2) ∈ [1]))]
  rfl

/-- Update element `(i, c')` lands on `(b, c)` exactly when the index word of row `i`, read as a signed integer,
    is `b`, and `c' = c`: a word that is negative or at least `K` names no row of the operand, and the update
    is dropped. -/
theorem rowsDims_resultIdx?_eq_some_iff {K B N w : Nat}
    (wf : ScatterDims.WF ⟨2, ![K, B]⟩ ⟨2, ![N, 1]⟩ ⟨2, ![N, B]⟩ [1] [0] [0] 1)
    (idx : IVec ⟨2, ![N, 1]⟩ w) (i : Fin N) (c' : Fin B) (b : Fin K) (c : Fin B) :
    (rowsDims K B N wf).resultIdx? (ix2 i c') idx = some (ix2 b c)
      ↔ (idx (ix2 i (0 : Fin 1))).toInt = (b.val : Int) ∧ c' = c := by
  have hb : b.val < K := b.isLt
  have hc' : c'.val < B := c'.isLt
  have p0 : (rowsDims K B N wf).start (ix2 i c') idx 0 + ((rowsDims K B N wf).window (ix2 i c') 0 : Int)
      = (idx (ix2 i (0 : Fin 1))).toInt := by
    rw [rowsDims_start0, rowsDims_window0]; exact Int.add_zero _
  have p1 : (rowsDims K B N wf).start (ix2 i c') idx 1 + ((rowsDims K B N wf).window (ix2 i c') 1 : Int)
      = (c'.val : Int) := by
    rw [rowsDims_start1, rowsDims_window1]; exact Int.zero_add _
  unfold ScatterDims.resultIdx?
  split_ifs with h
  · rw [Option.some.injEq]
    constructor
    · intro e
      have e0 := congrArg (fun f => (f 0).val) e
      have e1 := congrArg (fun f => (f 1).val) e
      change ((rowsDims K B N wf).start (ix2 i c') idx 0
        + ((rowsDims K B N wf).window (ix2 i c') 0 : Int)).toNat = b.val at e0
      change ((rowsDims K B N wf).start (ix2 i c') idx 1
        + ((rowsDims K B N wf).window (ix2 i c') 1 : Int)).toNat = c.val at e1
      have h0 := (h 0).1
      rw [p0] at e0 h0
      rw [p1] at e1
      exact ⟨by omega, Fin.ext (by omega)⟩
    · rintro ⟨e, rfl⟩
      refine idx2_ext (Fin.ext ?_) (Fin.ext ?_)
      · change ((rowsDims K B N wf).start (ix2 i c') idx 0
          + ((rowsDims K B N wf).window (ix2 i c') 0 : Int)).toNat = b.val
        rw [p0]; omega
      · change ((rowsDims K B N wf).start (ix2 i c') idx 1
          + ((rowsDims K B N wf).window (ix2 i c') 1 : Int)).toNat = c'.val
        rw [p1]; omega
  · constructor
    · intro e; exact absurd e (by simp)
    · rintro ⟨e, rfl⟩
      exfalso
      apply h
      refine forall_axis2 ?_ ?_
      · rw [p0]
        change 0 ≤ (idx (ix2 i (0 : Fin 1))).toInt ∧ (idx (ix2 i (0 : Fin 1))).toInt < (K : Int)
        omega
      · rw [p1]
        change 0 ≤ (c'.val : Int) ∧ (c'.val : Int) < (B : Int)
        omega

/-- THE SUM OF ROWS AT `(b, c)`: the operand's element plus the sum, over the updates whose index word is `b`, of the
    update's element `(i, c)`. -/
theorem scatterAdd_rows_apply {K B N w : Nat}
    (wf : ScatterDims.WF ⟨2, ![K, B]⟩ ⟨2, ![N, 1]⟩ ⟨2, ![N, B]⟩ [1] [0] [0] 1)
    (x : (⟨2, ![K, B]⟩ : Shape).Idx → EReal) (idx : IVec ⟨2, ![N, 1]⟩ w)
    (upd : (⟨2, ![N, B]⟩ : Shape).Idx → EReal) (b : Fin K) (c : Fin B) :
    Ideal.hostScatterAdd (rowsDims K B N wf) x idx upd (ix2 b c)
      = x (ix2 b c) + ∑ i : Fin N, if (idx (ix2 i (0 : Fin 1))).toInt = (b.val : Int) then upd (ix2 i c) else 0 := by
  unfold Ideal.hostScatterAdd
  refine congrArg (x (ix2 b c) + ·) ?_
  rw [Finset.sum_filter, sum_idx2]
  refine Finset.sum_congr rfl fun i _ => ?_
  have hc : ∀ c' : Fin B, c' ≠ c →
      (if (rowsDims K B N wf).resultIdx? (ix2 i c') idx = some (ix2 b c)
        then upd (ix2 i c') else 0) = 0 := fun c' hc' =>
    if_neg fun h => hc' ((rowsDims_resultIdx?_eq_some_iff wf idx i c' b c).mp h).2
  rw [Fintype.sum_eq_single c hc]
  exact if_congr ((rowsDims_resultIdx?_eq_some_iff wf idx i c b c).trans
    ⟨fun h => h.1, fun h => ⟨h, rfl⟩⟩) rfl rfl

end Idealize.ShloMosaic.ScatterAddRows

end
-- ==== Proof.LibScatterAddBins.lean ====
/-
  An accumulating float scatter of N scalars into a vector of K bins, read at a bin, over the extended reals.

  `x.at[idx].add(upd)` of a vector `x : [K]` with one index per update (`idx : [N, 1]`, `upd : [N]`; also what
  `jax.ops.segment_sum` lowers to) prints as a scatter whose one operand axis is inserted and indexed by the start
  index. At the ideal instance the result at bin b is the operand's element plus the sum of the updates whose index
  word, read as a signed integer, is b; an update whose index is negative or at least K lands nowhere.

  The steps, each a lemma of its own: on the one operand axis the start of update j is the signed index word of row j
  (`binsDims_start`) and the window coordinate is 0, the axis being inserted (`binsDims_window`); so update j lands
  on bin b exactly when that signed word equals b (`binsDims_resultIdx?_eq_some_iff`); and the sum over the updates
  landing on b, taken over the indices of the update vector, is re-indexed over the numbers below N (`idx1Equiv`).
-/
import Idealize.ShloMosaic.PureOps.Ideal
import Idealize.ShloMosaic.Lib.ValueIdx

noncomputable section

namespace Idealize.ShloMosaic.ScatterAddBins

open Idealize.ShloMosaic Idealize.ShloMosaic.ValueIdx

/-- The dimension numbers of a scatter of N scalars into K bins: operand `[K]`, indices `[N, 1]`, updates `[N]`. -/
abbrev binsDims (K N : Nat) (wf : ScatterDims.WF ⟨1, ![K]⟩ ⟨2, ![N, 1]⟩ ⟨1, ![N]⟩ [] [0] [0] 1) :
    ScatterDims ⟨1, ![K]⟩ ⟨2, ![N, 1]⟩ ⟨1, ![N]⟩ where
  updateWindowDims := []
  insertedWindowDims := [0]
  scatterDimsToOperandDims := [0]
  indexVectorDim := 1
  wf := wf

/-- The start of update `j` on the one operand axis is the index word of row `j`, read as a signed integer: the
    start index's only component sits at `[j, 0]` of the scatter indices. -/
theorem binsDims_start {K N w : Nat} (wf : ScatterDims.WF ⟨1, ![K]⟩ ⟨2, ![N, 1]⟩ ⟨1, ![N]⟩ [] [0] [0] 1)
    (idx : IVec ⟨2, ![N, 1]⟩ w) (j : (⟨1, ![N]⟩ : Shape).Idx) (a : Fin 1) :
    (binsDims K N wf).start j idx a = (idx (ix2 (j 0) (0 : Fin 1))).toInt := by
  obtain rfl : a = 0 := Subsingleton.elim _ _
  unfold ScatterDims.start
  rw [dif_pos (show (0 : Fin 1) ∈ (binsDims K N wf).scatterDimsToOperandDims from List.mem_singleton.mpr rfl)]
  have hsi : (binsDims K N wf).siIdx j ⟨List.idxOf (0 : Fin 1) (binsDims K N wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- The one operand axis is an inserted window axis, so every update's window coordinate on it is `0`. -/
theorem binsDims_window {K N : Nat} (wf : ScatterDims.WF ⟨1, ![K]⟩ ⟨2, ![N, 1]⟩ ⟨1, ![N]⟩ [] [0] [0] 1)
    (j : (⟨1, ![N]⟩ : Shape).Idx) (a : Fin 1) : (binsDims K N wf).window j a = 0 := by
  obtain rfl : a = 0 := Subsingleton.elim _ _
  unfold ScatterDims.window
  rw [dif_neg]
  intro h
  have h2 := (List.mem_filter.1 h).2
  simp at h2

/-- Update `j` lands on bin `b` exactly when its index word, read as a signed integer, is `b`: a word that is
    negative or at least `K` names no bin, and the update is dropped. -/
theorem binsDims_resultIdx?_eq_some_iff {K N w : Nat} (wf : ScatterDims.WF ⟨1, ![K]⟩ ⟨2, ![N, 1]⟩ ⟨1, ![N]⟩ [] [0] [0] 1)
    (idx : IVec ⟨2, ![N, 1]⟩ w) (j : (⟨1, ![N]⟩ : Shape).Idx) (b : Fin K) :
    (binsDims K N wf).resultIdx? j idx = some (ix1 b) ↔ (idx (ix2 (j 0) (0 : Fin 1))).toInt = (b.val : Int) := by
  have hb : b.val < K := b.isLt
  unfold ScatterDims.resultIdx?
  split_ifs with h
  · rw [Option.some.injEq]
    constructor
    · intro e
      have e0 := congrArg (fun f => (f 0).val) e
      simp only [binsDims_start, binsDims_window] at e0
      have h0 := h 0
      simp only [binsDims_start, binsDims_window] at h0
      change ((idx (ix2 (j 0) (0 : Fin 1))).toInt + ((0 : Nat) : Int)).toNat = b.val at e0
      omega
    · intro e
      funext a
      obtain rfl : a = 0 := Subsingleton.elim _ _
      refine Fin.ext ?_
      simp only [binsDims_start, binsDims_window]
      change ((idx (ix2 (j 0) (0 : Fin 1))).toInt + ((0 : Nat) : Int)).toNat = b.val
      omega
  · constructor
    · intro e; exact absurd e (by simp)
    · intro e
      exfalso
      apply h
      intro a
      simp only [binsDims_start, binsDims_window]
      obtain rfl : a = 0 := Subsingleton.elim _ _
      change 0 ≤ (idx (ix2 (j 0) (0 : Fin 1))).toInt + ((0 : Nat) : Int) ∧
        (idx (ix2 (j 0) (0 : Fin 1))).toInt + ((0 : Nat) : Int) < (K : Int)
      omega

/-- The indices of a vector of extent `N` are the numbers below `N`. -/
def idx1Equiv (N : Nat) : Fin N ≃ (⟨1, ![N]⟩ : Shape).Idx where
  toFun := fun i => ix1 i
  invFun := fun j => j 0
  left_inv := fun _ => rfl
  right_inv := fun j => (eq_ix1 j).symm

/-- THE BINNED SUM AT BIN `b`: the operand's element plus the sum of the updates whose index word is `b`. -/
theorem scatterAdd_bins_apply {K N w : Nat} (wf : ScatterDims.WF ⟨1, ![K]⟩ ⟨2, ![N, 1]⟩ ⟨1, ![N]⟩ [] [0] [0] 1)
    (x : (⟨1, ![K]⟩ : Shape).Idx → EReal) (idx : IVec ⟨2, ![N, 1]⟩ w) (upd : (⟨1, ![N]⟩ : Shape).Idx → EReal) (b : Fin K) :
    Ideal.hostScatterAdd (binsDims K N wf) x idx upd (ix1 b)
      = x (ix1 b) + ∑ i : Fin N, if (idx (ix2 i (0 : Fin 1))).toInt = (b.val : Int) then upd (ix1 i) else 0 := by
  unfold Ideal.hostScatterAdd
  refine congrArg (x (ix1 b) + ·) ?_
  rw [Finset.sum_filter]
  refine (Fintype.sum_equiv (idx1Equiv N) _ _ fun i => ?_).symm
  exact (if_congr (binsDims_resultIdx?_eq_some_iff wf idx (ix1 i) b) rfl rfl).symm

end Idealize.ShloMosaic.ScatterAddBins

end
-- ==== Proof.LibGatherRows.lean ====
/-
  A two-axis table gathered along its FIRST axis by a COLUMN of start indices, read at an index.

  `x[idx]` of `x : [N, B]` at `idx : [R]` lowers to a gather whose start indices are the `[R, 1]` column of `idx`
  and whose result `[R, B]` has one offset axis (the last, running over the table's second axis); the table's first
  axis is collapsed and indexed by the start index. The result element at `(r, b)` is the table's element at row
  `idx[r, 0]`, read as a signed integer and clamped into `[0, N - 1]`, and column `b`.
-/
import Idealize.ShloMosaic.Lib.ValueIdx

noncomputable section

namespace Idealize.ShloMosaic.GatherRows

open Idealize.ShloMosaic Idealize.ShloMosaic.ValueIdx

variable {α : Type}

/-- The clamped start position a signed word names on an axis of extent `N` (slices of one element). -/
abbrev clampPos {w : Nat} (N : Nat) (hN : 0 < N) (v : BitVec w) : Fin N := ⟨min v.toInt.toNat (N - 1), by omega⟩

/-- The dimension numbers of a take of whole rows by a column of start indices. -/
abbrev colDims (N B R : Nat)
    (wf : GatherDims.WF ⟨2, ![N, B]⟩ ⟨2, ![R, 1]⟩ ⟨2, ![R, B]⟩ [1] [0] [] [0] [] 1 ![1, B]) :
    GatherDims ⟨2, ![N, B]⟩ ⟨2, ![R, 1]⟩ ⟨2, ![R, B]⟩ where
  offsetDims := [1]
  collapsedSliceDims := [0]
  operandBatchingDims := []
  startIndicesBatchingDims := []
  startIndexMap := [0]
  indexVectorDim := 1
  sliceSizes := ![1, B]
  wf := wf

/-- On the indexed axis the operand index is the clamped start index. -/
theorem col_axis0 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 0).val
      = min (idx (ix2 (j 0) (0 : Fin 1))).toInt.toNat (N - 1) := by
  show (colDims N B R wf).start j idx 0 + (colDims N B R wf).batchCoord j 0 + (colDims N B R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (colDims N B R wf).startIndexMap from List.mem_singleton.mpr rfl)]
  have hsi : (colDims N B R wf).siIdx j ⟨List.idxOf (0 : Fin 2) (colDims N B R wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the other axis it is the result's offset coordinate. -/
theorem col_axis1 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 1).val = (j 1).val := by
  show (colDims N B R wf).start j idx 1 + (colDims N B R wf).batchCoord j 1 + (colDims N B R wf).offCoord j 1 = _
  rw [GatherDims.batchCoord_eq_zero _ _ _ List.not_mem_nil]
  unfold GatherDims.start
  rw [dif_neg (show ¬ (1 : Fin 2) ∈ (colDims N B R wf).startIndexMap from
    fun h => absurd (List.mem_singleton.mp h) (by decide : ¬ (1 : Fin 2) = 0))]
  unfold GatherDims.offCoord
  rw [dif_pos (show (1 : Fin 2) ∈ (colDims N B R wf).sKept from
    (GatherDims.mem_sKept _ _).mpr ⟨fun h => absurd (List.mem_singleton.mp h) (by decide : ¬ (1 : Fin 2) = 0), List.not_mem_nil⟩)]
  simp only [Nat.zero_add, Nat.add_zero]
  rfl

/-- THE TAKE OF ROWS AT `(r, b)`: the table at row `idx[r, 0]` (signed, clamped) and column `b`. -/
theorem gather_col_apply {N B R w : Nat} (hN : 0 < N)
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ w) (j : (⟨2, ![R, B]⟩ : Shape).Idx) :
    Host.gather (colDims N B R wf) x idx j
      = x (ix2 (clampPos N hN (idx (ix2 (j 0) (0 : Fin 1)))) (j 1)) := by
  unfold Host.gather
  refine congrArg x (funext fun a => Fin.ext ?_)
  match a with
  | ⟨0, _⟩ => exact col_axis0 wf idx j
  | ⟨1, _⟩ => exact col_axis1 wf idx j

end Idealize.ShloMosaic.GatherRows

end
-- ==== Proof.KHostG.lean ====
import proofs.«410323_j14740327760488_1_alg».proof.Proof.Gen.KernelIdeal.Frame
import proofs.«410323_j14740327760488_1_alg».proof.Proof.GcnSpec
import proofs.«410323_j14740327760488_1_alg».proof.Proof.LibScatterAddRows
import proofs.«410323_j14740327760488_1_alg».proof.Proof.LibScatterAddBins
import proofs.«410323_j14740327760488_1_alg».proof.Proof.LibGatherRows
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws

set_option maxRecDepth 16384

noncomputable section

namespace Cert.KernelIdeal.HostG

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

open scoped BigOperators

/-! ## Words: a node word in range compares as its value -/

/-- A word that reads non-negative is not below zero. -/
theorem cmpi_slt_zero {w : BitVec 32} (h : 0 ≤ w.toInt) : IntOp.cmpi .slt w 0#32 = 0#1 := by
  show BitVec.ofBool (w.slt 0#32) = 0#1
  have e : w.slt 0#32 = false := by
    simp only [BitVec.slt, BitVec.toInt_zero, decide_eq_false_iff_not, not_lt]; exact h
  rw [e]; rfl

/-- A word that reads non-negative is at least zero. -/
theorem cmpi_sge_zero {w : BitVec 32} (h : 0 ≤ w.toInt) : IntOp.cmpi .sge w 0#32 = 1#1 := by
  show BitVec.ofBool ((0#32 : BitVec 32).sle w) = 1#1
  have e : (0#32 : BitVec 32).sle w = true := by
    simp only [BitVec.sle, BitVec.toInt_zero, decide_eq_true_eq]; exact h
  rw [e]; rfl

/-- A word that reads below the node count is at most the last node. -/
theorem cmpi_sle_last {w : BitVec 32} (h : w.toInt < 100000) : IntOp.cmpi .sle w 99999#32 = 1#1 := by
  show BitVec.ofBool (w.sle 99999#32) = 1#1
  have e9 : (99999#32 : BitVec 32).toInt = ((99999 : ℕ) : Int) :=
    StableHlo.Predicate.toInt_ofNat_small 99999 (by norm_num)
  have e : w.sle 99999#32 = true := by
    simp only [BitVec.sle, e9, decide_eq_true_eq]; omega
  rw [e]; rfl

/-! ## A conjunction of ones -/

/-- A fold by `and` from 1 over words that are all 1 is 1. -/
theorem foldl_andi_ones {ι : Type} (f : ι → BitVec 1) (hf : ∀ n, f n = 1#1) (l : List ι) :
    l.foldl (fun r n => IntOp.andi r (f n)) 1#1 = 1#1 := by
  have h11 : IntOp.andi (1#1 : BitVec 1) 1#1 = 1#1 := rfl
  induction l with
  | nil => rfl
  | cons a l ih => rw [List.foldl_cons, hf a, h11]; exact ih

/-- A reduction by `and` from 1 of an array of ones is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_ones x hx _

/-! ## A vector laid along the first axis of a rectangle -/

/-- A vector of more than one entry broadcast along the first axis of an [n, d] rectangle reads, at (p, q), the
    vector at p. -/
theorem bcast_first_apply {α : Type} {n d : Nat} (hn1 : n ≠ 1)
    (h : (⟨1, ![n]⟩ : Shape).BroadcastsInDim ⟨2, ![n, d]⟩ (![0] : Fin 1 → Fin 2))
    (v : (⟨1, ![n]⟩ : Shape).Idx → α) (p : Fin n) (q : Fin d) :
    broadcastInDim ⟨2, ![n, d]⟩ (![0] : Fin 1 → Fin 2) h v (ix2 p q) = v (ix1 p) :=
  broadcastInDim_apply _ h v _ _ fun a => by
    match a with
    | ⟨0, _⟩ =>
      show p.val = if n = 1 then 0 else p.val
      exact (if_neg hn1).symm

/-! ## The edge list's two rows -/

/-- Row r of the edge list as a vector: the slice of one row, its unit axis dropped. -/
def edgeRow (r : Nat) (hs : S2x1600000.Slices ![r, 0] S1x1600000) (E : Gcn.Edges) : IVec S1600000 32 :=
  shapeCast S1600000 (extractStridedSlice S1x1600000 ![r, 0] E hs) shapeCasts_S1x1600000_S1600000

/-- Entry k of row r is the edge list at (r, k). -/
theorem edgeRow_apply (r : Fin 2) (hs : S2x1600000.Slices ![r.val, 0] S1x1600000) (E : Gcn.Edges) (k : Fin 1600000) :
    edgeRow r.val hs E (ix1 k) = E (ix2 r k) := by
  unfold edgeRow
  rw [shapeCast_1a_a_apply]
  exact slice2_axis0_apply r.val E hs (0 : Fin 1) k r (Nat.add_zero _).symm

/-! ## The take of rows at the source words -/

/-- The source words, a negative one moved up by the node count. -/
def wrapWords (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The same as a column. -/
def wrapCol (src : IVec S1600000 32) : IVec S1600000x1 32 :=
  broadcastInDim S1600000x1 ![0] bcast_S1600000_S1600000x1_0 (wrapWords src)

/-- Per row of a column of words: is the word a node? -/
def inRangeMask (v : IVec S1600000x1 32) : IVec S1600000 1 :=
  Host.reduce IntOp.andi
    (andi (cmpi .sge v (broadcastInDim S1600000x1 ![] bcast_S_S1600000x1 (constantI S_ 32 0#32)))
      (cmpi .sle v (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The take: row k of the result is the table's row at the k-th wrapped source word, or a row of fill where that
    word names no node. -/
def takeRows {D : Nat} (hm : S1600000.BroadcastsInDim (⟨2, ![1600000, D]⟩ : Shape) (![0] : Fin 1 → Fin 2))
    (hf : S_.BroadcastsInDim (⟨2, ![1600000, D]⟩ : Shape) (![] : Fin 0 → Fin 2))
    (gd : GatherDims ⟨2, ![100000, D]⟩ S1600000x1 ⟨2, ![1600000, D]⟩)
    (src : IVec S1600000 32) (g : Gcn.Mat 100000 D) : Gcn.Mat 1600000 D :=
  select (broadcastInDim ⟨2, ![1600000, D]⟩ (![0] : Fin 1 → Fin 2) hm (inRangeMask (wrapCol src)))
    (Host.gather gd g (wrapCol src))
    (broadcastInDim ⟨2, ![1600000, D]⟩ (![] : Fin 0 → Fin 2) hf (constant (F := Ideal) S_ .f32 0x7FC00000#32))

/-- A source word in range is not moved. -/
theorem wrapWords_apply (src : IVec S1600000 32) (k : Fin 1600000) (h : 0 ≤ (src (ix1 k)).toInt) :
    wrapWords src (ix1 k) = src (ix1 k) := by
  show Scalar.select (IntOp.cmpi .slt (src (ix1 k)) 0#32) _ (src (ix1 k)) = _
  rw [cmpi_slt_zero h, select_zero]

/-- The column at row k is the k-th wrapped word. -/
theorem wrapCol_apply (src : IVec S1600000 32) (k : Fin 1600000) :
    wrapCol src (ix2 k (0 : Fin 1)) = wrapWords src (ix1 k) :=
  bcast_first_apply (by norm_num) bcast_S1600000_S1600000x1_0 (wrapWords src) k (0 : Fin 1)

/-- Over a column of node words the mask is all ones. -/
theorem inRangeMask_ones (v : IVec S1600000x1 32)
    (hv : ∀ k : Fin 1600000, 0 ≤ (v (ix2 k (0 : Fin 1))).toInt ∧ (v (ix2 k (0 : Fin 1))).toInt < 100000)
    (j : S1600000.Idx) : inRangeMask v j = 1#1 := by
  refine reduce_andi_ones _ _ _ _ (fun i => ?_) (fun _ => rfl) j
  obtain ⟨p, q, rfl⟩ : ∃ (p : Fin 1600000) (q : Fin 1), i = ix2 p q := ⟨i 0, i 1, eq_ix2 i⟩
  obtain rfl : q = 0 := Subsingleton.elim _ _
  show IntOp.andi (IntOp.cmpi .sge (v (ix2 p 0)) 0#32) (IntOp.cmpi .sle (v (ix2 p 0)) 99999#32) = 1#1
  rw [cmpi_sge_zero (hv p).1, cmpi_sle_last (hv p).2]
  rfl

/-- THE TAKE AT (k, j), every source word a node: the table's row at the k-th source word. -/
theorem takeRows_apply {D : Nat} (hm : S1600000.BroadcastsInDim (⟨2, ![1600000, D]⟩ : Shape) (![0] : Fin 1 → Fin 2))
    (hf : S_.BroadcastsInDim (⟨2, ![1600000, D]⟩ : Shape) (![] : Fin 0 → Fin 2))
    (gwf : GatherDims.WF ⟨2, ![100000, D]⟩ ⟨2, ![1600000, 1]⟩ ⟨2, ![1600000, D]⟩ [1] [0] [] [0] [] 1 ![1, D])
    (src : IVec S1600000 32) (g : Gcn.Mat 100000 D)
    (hsrc : ∀ k : Fin 1600000, 0 ≤ (src (ix1 k)).toInt ∧ (src (ix1 k)).toInt < 100000)
    (k : Fin 1600000) (j : Fin D) (n : Fin 100000) (hn : (src (ix1 k)).toInt = (n.val : Int)) :
    takeRows hm hf (GatherRows.colDims 100000 D 1600000 gwf) src g (ix2 k j) = g (ix2 n j) := by
  have hc : ∀ k, wrapCol src (ix2 k (0 : Fin 1)) = src (ix1 k) := fun k =>
    (wrapCol_apply src k).trans (wrapWords_apply src k (hsrc k).1)
  have hmask := inRangeMask_ones (wrapCol src) (fun k => by rw [hc k]; exact hsrc k)
  unfold takeRows
  rw [select_apply, bcast_first_apply (by norm_num) hm, hmask, select_one,
    GatherRows.gather_col_apply (by norm_num) gwf g (wrapCol src) (ix2 k j)]
  have hcl : GatherRows.clampPos 100000 (by norm_num) (wrapCol src (ix2 k (0 : Fin 1))) = n := by
    apply Fin.ext
    show min (wrapCol src (ix2 k (0 : Fin 1))).toInt.toNat (100000 - 1) = n.val
    rw [hc k, hn]
    have := n.isLt
    omega
  exact congrArg (fun r => g (ix2 r j)) hcl

/-! ## Contents moved to a typed reference's buffer type and back -/

/-- Contents moved to the buffer's type and back are the contents. -/
theorem ofBuf_toBuf {T : BufTy} (x : StableHlo.TRef sig T) (v : T.Contents (Elt Ideal)) : x.ofBuf (x.toBuf v) = v := by
  obtain ⟨r, h, hd, hu⟩ := x
  subst h
  rfl

/-- At a literal reference whose buffer type is the value's type the move is the identity. -/
theorem toBuf_main_v18 (h hd hu) (v : (⟨S1600000x128, .f32⟩ : BufTy).Contents (Elt Ideal)) :
    (StableHlo.TRef.of main_v18 h hd hu).toBuf v = v := rfl
theorem toBuf_main_v25 (h hd hu) (v : (⟨S1600000x64, .f32⟩ : BufTy).Contents (Elt Ideal)) :
    (StableHlo.TRef.of main_v25 h hd hu).toBuf v = v := rfl
theorem ofBuf_main_v1 (h hd hu) (v : (main_v1 : Ref sig .tc).ty.Contents (Elt Ideal)) :
    (StableHlo.TRef.of (T := ⟨S1600000, .i32⟩) main_v1 h hd hu).ofBuf v = v := rfl
theorem ofBuf_main_v17 (h hd hu) (v : (main_v17 : Ref sig .tc).ty.Contents (Elt Ideal)) :
    (StableHlo.TRef.of (T := ⟨S100000x128, .f32⟩) main_v17 h hd hu).ofBuf v = v := rfl
theorem ofBuf_main_v24 (h hd hu) (v : (main_v24 : Ref sig .tc).ty.Contents (Elt Ideal)) :
    (StableHlo.TRef.of (T := ⟨S100000x64, .f32⟩) main_v24 h hd hu).ofBuf v = v := rfl

/-! ## The take scattered and added at the target words -/

/-- The rows of g at the sources of the edges, summed into the rows the targets name: from a table of zeros, the
    scatter of the take adds into row i the row g(src k) of every edge k whose target word is i. -/
theorem scatter_take_eq_gatherSum {D : Nat}
    (hm : S1600000.BroadcastsInDim (⟨2, ![1600000, D]⟩ : Shape) (![0] : Fin 1 → Fin 2))
    (hf : S_.BroadcastsInDim (⟨2, ![1600000, D]⟩ : Shape) (![] : Fin 0 → Fin 2))
    (hz : S_.BroadcastsInDim (⟨2, ![100000, D]⟩ : Shape) (![] : Fin 0 → Fin 2))
    (gwf : GatherDims.WF ⟨2, ![100000, D]⟩ ⟨2, ![1600000, 1]⟩ ⟨2, ![1600000, D]⟩ [1] [0] [] [0] [] 1 ![1, D])
    (swf : ScatterDims.WF ⟨2, ![100000, D]⟩ ⟨2, ![1600000, 1]⟩ ⟨2, ![1600000, D]⟩ [1] [0] [0] 1)
    (E : Gcn.Edges) (hE : Gcn.InRange E) (src dst : IVec S1600000 32)
    (hs : ∀ k : Fin 1600000, src (ix1 k) = E (ix2 (0 : Fin 2) k))
    (hd : ∀ k : Fin 1600000, dst (ix1 k) = E (ix2 (1 : Fin 2) k)) (g : Gcn.Mat 100000 D) :
    Ideal.hostScatterAdd (ScatterAddRows.rowsDims 100000 D 1600000 swf)
        (broadcastInDim ⟨2, ![100000, D]⟩ (![] : Fin 0 → Fin 2) hz (constant (F := Ideal) S_ .f32 0x00000000#32))
        (broadcastInDim S1600000x1 ![0] bcast_S1600000_S1600000x1_0 dst)
        (takeRows hm hf (GatherRows.colDims 100000 D 1600000 gwf) src g)
      = Gcn.gatherSum E g := by
  funext idx
  obtain ⟨i, j, rfl⟩ : ∃ (i : Fin 100000) (j : Fin D), idx = ix2 i j := ⟨idx 0, idx 1, eq_ix2 idx⟩
  rw [ScatterAddRows.scatterAdd_rows_apply]
  have h0 : broadcastInDim ⟨2, ![100000, D]⟩ (![] : Fin 0 → Fin 2) hz (constant (F := Ideal) S_ .f32 0x00000000#32) (ix2 i j)
      = 0 := Ideal.ofBits_zero_f32
  rw [h0, zero_add]
  have hsrc : ∀ k : Fin 1600000, 0 ≤ (src (ix1 k)).toInt ∧ (src (ix1 k)).toInt < 100000 := fun k => by
    rw [hs k]; exact hE 0 k
  show _ = ∑ k : Fin 1600000, if Gcn.node E 1 k = i then g (ix2 (Gcn.node E 0 k) j) else 0
  refine Finset.sum_congr rfl fun k _ => ?_
  rw [bcast_first_apply (by norm_num) bcast_S1600000_S1600000x1_0 dst k (0 : Fin 1), hd k, Gcn.node_val hE 1 k,
    takeRows_apply hm hf gwf src g hsrc k j (Gcn.node E 0 k) ((congrArg BitVec.toInt (hs k)).trans (Gcn.node_val hE 0 k))]
  exact if_congr ⟨fun h => Fin.ext (Int.ofNat_inj.mp h), fun h => congrArg (fun t : Fin 100000 => (t.val : Int)) h⟩ rfl rfl

/-! ## The stretches' results, at any contents the stretch is entered with -/

/-- The source words after the first stretch: row 0 of the edge list. -/
theorem after0_v1 (V : Valuation τ sig (Elt Ideal)) :
    StableHlo.after hostOps0 V (Proc.devRef .tc main_v1)
      = edgeRow 0 slices_S2x1600000_S1x1600000_0_0 (V (Proc.devRef .tc main_arg1)) := by
  after_results_simp
  rfl

/-- The target words after the first stretch: row 1 of the edge list. -/
theorem after0_v3 (V : Valuation τ sig (Elt Ideal)) :
    StableHlo.after hostOps0 V (Proc.devRef .tc main_v3)
      = edgeRow 1 slices_S2x1600000_S1x1600000_1_0 (V (Proc.devRef .tc main_arg1)) := by
  after_results_simp
  rfl

/-- The first layer's take: of the scaled rows at the source words. -/
theorem after1_v18 (V : Valuation τ sig (Elt Ideal)) :
    StableHlo.after hostOps1 V (Proc.devRef .tc main_v18)
      = takeRows bcast_S1600000_S1600000x128_0 bcast_S_S1600000x128
          gather_S100000x128_S1600000x1_S1600000x128_1_0_n_n_0_1_1128
          (V (Proc.devRef .tc main_v1)) (V (Proc.devRef .tc main_v17)) := by
  after_results_simp
  simp only [ofBuf_toBuf, toBuf_main_v18, ofBuf_main_v1, ofBuf_main_v17]
  rfl

/-- The first layer's scatter: of the take, at the target words, into zeros. -/
theorem after1_1_v21 (V : Valuation τ sig (Elt Ideal)) :
    StableHlo.after hostOps1_1 V (Proc.devRef .tc main_v21)
      = Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (V (Proc.devRef .tc main_v3)))
          (V (Proc.devRef .tc main_v18)) := by
  after_results_simp

/-! ## Walking a buffer back through the run

No operation of a stretch writes the buffer, and it is no array of a region: it holds what it held before. -/

/-- No operation of the named stretch writes the buffer. -/
macro "stretch_keeps " ops:ident : tactic =>
  `(tactic| (
    refine StableHlo.after_of_forall_not_mem _ _ (List.forall_iff_forall_mem.mp ?_)
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The source words when region 0 is entered. -/
theorem W1_v1 (c : Dev nD) :
    W1 m ρ c (Proc.devRef .tc main_v1)
      = edgeRow 0 slices_S2x1600000_S1x1600000_0_0 (m ((c : Thread nD τ).loc main_arg1)) :=
  after0_v1 (W0 m ρ c)

/-- The target words when region 0 is entered. -/
theorem W1_v3 (c : Dev nD) :
    W1 m ρ c (Proc.devRef .tc main_v3)
      = edgeRow 1 slices_S2x1600000_S1x1600000_1_0 (m ((c : Thread nD τ).loc main_arg1)) :=
  after0_v3 (W0 m ρ c)

/-- The source words at region 0's exit. -/
theorem W2_v1 (c : Dev nD) :
    W2 m ρ c (Proc.devRef .tc main_v1)
      = edgeRow 0 slices_S2x1600000_S1x1600000_0_0 (m ((c : Thread nD τ).loc main_arg1)) :=
  (W2_of_ne m ρ c main_v1 (by decide)).trans (W1_v1 m ρ c)

/-- The target words after the first layer's take. -/
theorem W3_v3 (c : Dev nD) :
    W3 m ρ c (Proc.devRef .tc main_v3)
      = edgeRow 1 slices_S2x1600000_S1x1600000_1_0 (m ((c : Thread nD τ).loc main_arg1)) :=
  calc W3 m ρ c (Proc.devRef .tc main_v3)
    _ = W2 m ρ c (Proc.devRef .tc main_v3) := by stretch_keeps hostOps1
    _ = W1 m ρ c (Proc.devRef .tc main_v3) := W2_of_ne m ρ c main_v3 (by decide)
    _ = _ := W1_v3 m ρ c

/-- The first layer's take after its stretch, over region 0's exit contents. -/
theorem W3_v18 (c : Dev nD) :
    W3 m ρ c (Proc.devRef .tc main_v18)
      = takeRows bcast_S1600000_S1600000x128_0 bcast_S_S1600000x128
          gather_S100000x128_S1600000x1_S1600000x128_1_0_n_n_0_1_1128
          (W2 m ρ c (Proc.devRef .tc main_v1)) (W2 m ρ c (Proc.devRef .tc main_v17)) :=
  after1_v18 (W2 m ρ c)

/-! ## The two reads -/

/-- Entry k of row 0, and of row 1, of the edge list. -/
theorem edgeRow0_apply (E : Gcn.Edges) (k : Fin 1600000) :
    edgeRow 0 slices_S2x1600000_S1x1600000_0_0 E (ix1 k) = E (ix2 (0 : Fin 2) k) :=
  edgeRow_apply (0 : Fin 2) slices_S2x1600000_S1x1600000_0_0 E k
theorem edgeRow1_apply (E : Gcn.Edges) (k : Fin 1600000) :
    edgeRow 1 slices_S2x1600000_S1x1600000_1_0 E (ix1 k) = E (ix2 (1 : Fin 2) k) :=
  edgeRow_apply (1 : Fin 2) slices_S2x1600000_S1x1600000_1_0 E k

/-- Before region 1: the gathered-and-summed rows. The take of the scaled rows at the source words (every word in
    range, so no row is filled and no index is clamped away) scattered-and-added at the target words. -/
theorem V4_v21 (c : Dev nD) (hE : Gcn.InRange (m ((c : Thread nD τ).loc main_arg1))) :
    V4 m ρ c main_v21 = Gcn.gatherSum (m ((c : Thread nD τ).loc main_arg1)) (V2 m ρ c main_v17) := by
  show W4 m ρ c (Proc.devRef .tc main_v21) = _
  refine (after1_1_v21 (W3 m ρ c)).trans ?_
  rw [W3_v3 m ρ c, W3_v18 m ρ c, W2_v1 m ρ c]
  exact scatter_take_eq_gatherSum bcast_S1600000_S1600000x128_0 bcast_S_S1600000x128 bcast_S_S100000x128
    gather_S100000x128_S1600000x1_S1600000x128_1_0_n_n_0_1_1128_wf scatter_S100000x128_S1600000x1_S1600000x128_1_0_0_1_wf
    (m ((c : Thread nD τ).loc main_arg1)) hE _ _ (edgeRow0_apply _) (edgeRow1_apply _) (V2 m ρ c main_v17)

/-! ## The second layer's stretches -/

/-- The second layer's take: of its scaled rows at the source words. -/
theorem after3_v25 (V : Valuation τ sig (Elt Ideal)) :
    StableHlo.after hostOps3 V (Proc.devRef .tc main_v25)
      = takeRows bcast_S1600000_S1600000x64_0 bcast_S_S1600000x64
          gather_S100000x64_S1600000x1_S1600000x64_1_0_n_n_0_1_164
          (V (Proc.devRef .tc main_v1)) (V (Proc.devRef .tc main_v24)) := by
  after_results_simp
  simp only [ofBuf_toBuf, toBuf_main_v25, ofBuf_main_v1, ofBuf_main_v24]
  rfl

/-- The second layer's scatter: of the take, at the target words, into zeros. -/
theorem after3_1_v28 (V : Valuation τ sig (Elt Ideal)) :
    StableHlo.after hostOps3_1 V (Proc.devRef .tc main_v28)
      = Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (V (Proc.devRef .tc main_v3)))
          (V (Proc.devRef .tc main_v25)) := by
  after_results_simp

/-- The source words at region 2's exit: no stretch and no region in between writes them. -/
theorem W6_v1 (c : Dev nD) :
    W6 m ρ c (Proc.devRef .tc main_v1)
      = edgeRow 0 slices_S2x1600000_S1x1600000_0_0 (m ((c : Thread nD τ).loc main_arg1)) :=
  calc W6 m ρ c (Proc.devRef .tc main_v1)
    _ = W5 m ρ c (Proc.devRef .tc main_v1) := W6_of_ne m ρ c main_v1 (by decide)
    _ = W4 m ρ c (Proc.devRef .tc main_v1) := W5_of_ne m ρ c main_v1 (by decide)
    _ = W3 m ρ c (Proc.devRef .tc main_v1) := by stretch_keeps hostOps1_1
    _ = W2 m ρ c (Proc.devRef .tc main_v1) := by stretch_keeps hostOps1
    _ = _ := W2_v1 m ρ c

/-- The target words after the second layer's take. -/
theorem W7_v3 (c : Dev nD) :
    W7 m ρ c (Proc.devRef .tc main_v3)
      = edgeRow 1 slices_S2x1600000_S1x1600000_1_0 (m ((c : Thread nD τ).loc main_arg1)) :=
  calc W7 m ρ c (Proc.devRef .tc main_v3)
    _ = W6 m ρ c (Proc.devRef .tc main_v3) := by stretch_keeps hostOps3
    _ = W5 m ρ c (Proc.devRef .tc main_v3) := W6_of_ne m ρ c main_v3 (by decide)
    _ = W4 m ρ c (Proc.devRef .tc main_v3) := W5_of_ne m ρ c main_v3 (by decide)
    _ = W3 m ρ c (Proc.devRef .tc main_v3) := by stretch_keeps hostOps1_1
    _ = _ := W3_v3 m ρ c

/-- The second layer's take after its stretch, over region 2's exit contents. -/
theorem W7_v25 (c : Dev nD) :
    W7 m ρ c (Proc.devRef .tc main_v25)
      = takeRows bcast_S1600000_S1600000x64_0 bcast_S_S1600000x64
          gather_S100000x64_S1600000x1_S1600000x64_1_0_n_n_0_1_164
          (W6 m ρ c (Proc.devRef .tc main_v1)) (W6 m ρ c (Proc.devRef .tc main_v24)) :=
  after3_v25 (W6 m ρ c)

/-- Before region 3: the same of the second layer's scaled rows. -/
theorem V8_v28 (c : Dev nD) (hE : Gcn.InRange (m ((c : Thread nD τ).loc main_arg1))) :
    V8 m ρ c main_v28 = Gcn.gatherSum (m ((c : Thread nD τ).loc main_arg1)) (V6 m ρ c main_v24) := by
  show W8 m ρ c (Proc.devRef .tc main_v28) = _
  refine (after3_1_v28 (W7 m ρ c)).trans ?_
  rw [W7_v3 m ρ c, W7_v25 m ρ c, W6_v1 m ρ c]
  exact scatter_take_eq_gatherSum bcast_S1600000_S1600000x64_0 bcast_S_S1600000x64 bcast_S_S100000x64
    gather_S100000x64_S1600000x1_S1600000x64_1_0_n_n_0_1_164_wf scatter_S100000x64_S1600000x1_S1600000x64_1_0_0_1_wf
    (m ((c : Thread nD τ).loc main_arg1)) hE _ _ (edgeRow0_apply _) (edgeRow1_apply _) (V6 m ρ c main_v24)

end Cert.KernelIdeal.HostG

end
-- ==== Proof.KHostD.lean ====
import proofs.«410323_j14740327760488_1_alg».proof.Proof.Gen.KernelIdeal.Frame
import proofs.«410323_j14740327760488_1_alg».proof.Proof.GcnSpec
import proofs.«410323_j14740327760488_1_alg».proof.Proof.LibScatterAddRows
import proofs.«410323_j14740327760488_1_alg».proof.Proof.LibScatterAddBins
import proofs.«410323_j14740327760488_1_alg».proof.Proof.LibGatherRows
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.IdealHost

set_option maxRecDepth 16384

noncomputable section

namespace Cert.KernelIdeal.HostD

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

section Aux
variable {α : Type}

/-- Row 1 of a two-row array, flattened to a vector, read at k, is the array at (1, k). -/
theorem rowOne_flat_apply {n : Nat} (E : (⟨2, ![2, n]⟩ : Shape).Idx → α)
    (hs : (⟨2, ![2, n]⟩ : Shape).Slices ![1, 0] ⟨2, ![1, n]⟩)
    (hc : (⟨2, ![1, n]⟩ : Shape).ShapeCasts ⟨1, ![n]⟩) (k : Fin n) :
    shapeCast ⟨1, ![n]⟩ (extractStridedSlice ⟨2, ![1, n]⟩ ![1, 0] E hs) hc (ix1 k) = E (ix2 (1 : Fin 2) k) := by
  refine (shapeCast_apply _ hc (ix1 k) (ix2 (0 : Fin 1) k) ?_).trans ?_
  · rw [Shape.rowMajor_val_two, Shape.rowMajor_val_one]
    show 0 * n + k.val = k.val
    omega
  · refine extractStridedSlice_apply ![1, 0] E hs (ix2 (0 : Fin 1) k) (ix2 (1 : Fin 2) k) ?_
    intro a
    match a with
    | ⟨0, _⟩ => rfl
    | ⟨1, _⟩ =>
      show k.val = 0 + k.val
      omega

/-- A vector spread to a one-column matrix, read at (k, q), is the vector at k. -/
theorem column_apply {n : Nat} (h : (⟨1, ![n]⟩ : Shape).BroadcastsInDim ⟨2, ![n, 1]⟩ ![0])
    (x : (⟨1, ![n]⟩ : Shape).Idx → α) (k : Fin n) (q : Fin 1) :
    broadcastInDim ⟨2, ![n, 1]⟩ ![0] h x (ix2 k q) = x (ix1 k) := by
  refine broadcastInDim_apply ![0] h x (ix2 k q) (ix1 k) ?_
  intro a
  match a with
  | ⟨0, _⟩ =>
    show k.val = if n = 1 then 0 else k.val
    split
    · have := k.isLt; omega
    · rfl

/-- A vector recast as a one-column matrix, read at (i, q), is the vector at i. -/
theorem toColumn_apply {n : Nat} (x : (⟨1, ![n]⟩ : Shape).Idx → α)
    (h : (⟨1, ![n]⟩ : Shape).ShapeCasts ⟨2, ![n, 1]⟩) (i : Fin n) (q : Fin 1) :
    shapeCast ⟨2, ![n, 1]⟩ x h (ix2 i q) = x (ix1 i) := by
  refine shapeCast_apply x h (ix2 i q) (ix1 i) ?_
  rw [Shape.rowMajor_val_one, Shape.rowMajor_val_two]
  show i.val = i.val * 1 + q.val
  have := q.isLt
  omega

end Aux

/-- A word that is not negative as a signed integer is left alone by the wrap of negative indices. -/
theorem wrap_of_nonneg (x y : BitVec 32) (hx : 0 ≤ x.toInt) :
    Scalar.select (IntOp.cmpi .slt x 0#32) y x = x := by
  have h : IntOp.cmpi .slt x 0#32 = 0#1 := by
    unfold IntOp.cmpi
    have hs : x.slt 0#32 = false := by
      rw [BitVec.slt]
      simp only [BitVec.toInt_zero, decide_eq_false_iff_not, not_lt]
      exact hx
    show BitVec.ofBool (x.slt 0#32) = 0#1
    rw [hs]
    rfl
  rw [h]
  exact select_zero _ _

/-- The host's inverse square root at an index. -/
theorem hostRsqrt_apply {s : Shape} (x : FVec Ideal s .f32) (i : s.Idx) : Host.rsqrt x i = Ideal.rsqrt (x i) := rfl

/-- The wrap of negative indices, then the spread to a column: at a word that is not negative, the word. -/
theorem wrapColumn_apply {n : Nat} (v z w : IVec (⟨1, ![n]⟩ : Shape) 32)
    (hcol : (⟨1, ![n]⟩ : Shape).BroadcastsInDim ⟨2, ![n, 1]⟩ ![0]) (k : Fin n) (q : Fin 1)
    (hz : z (ix1 k) = 0#32) (hv : 0 ≤ (v (ix1 k)).toInt) :
    broadcastInDim ⟨2, ![n, 1]⟩ ![0] hcol (select (cmpi .slt v z) (addi v w) v) (ix2 k q) = v (ix1 k) := by
  refine (column_apply hcol _ k q).trans ?_
  show Scalar.select (IntOp.cmpi .slt (v (ix1 k)) (z (ix1 k))) (IntOp.addi (v (ix1 k)) (w (ix1 k))) (v (ix1 k)) = v (ix1 k)
  rw [hz]
  exact wrap_of_nonneg _ _ hv

/-- The host's accumulating scatter of this program IS the ideal instance's, at the dimension numbers of a scatter
    of scalars into bins. -/
theorem hostScatterAdd_bins (x : FVec Ideal S100000 .f32) (idx : IVec S1600000x1 32) (upd : FVec Ideal S1600000 .f32) :
    Host.scatterAdd scatter_S100000_S1600000x1_S1600000_n_0_0_1 x idx upd
      = Ideal.hostScatterAdd (ScatterAddBins.binsDims 100000 1600000 scatter_S100000_S1600000x1_S1600000_n_0_0_1.wf) x idx upd := by
  show FloatOps.hostScatterAdd scatter_S100000_S1600000x1_S1600000_n_0_0_1 .single x idx upd = _
  refine (Ideal.hostScatterAdd_def _ _ _ _ _).trans ?_
  exact congrArg (fun d => Ideal.hostScatterAdd d x idx upd)
    (rfl : scatter_S100000_S1600000x1_S1600000_n_0_0_1
      = ScatterAddBins.binsDims 100000 1600000 scatter_S100000_S1600000x1_S1600000_n_0_0_1.wf)

/-- Ones scattered-and-added into zeros at the (wrapped) target words, read at node i: the number of edges into i. -/
theorem scatter_ones_apply (E : Gcn.Edges) (hE : Gcn.InRange E) (v z w : IVec S1600000 32)
    (hv : ∀ k : Fin 1600000, v (ix1 k) = E (ix2 (1 : Fin 2) k)) (hz : ∀ k : Fin 1600000, z (ix1 k) = 0#32)
    (x : FVec Ideal S100000 .f32) (upd : FVec Ideal S1600000 .f32)
    (hx : ∀ b : Fin 100000, x (ix1 b) = 0) (hu : ∀ k : Fin 1600000, upd (ix1 k) = 1) (i : Fin 100000) :
    Host.scatterAdd scatter_S100000_S1600000x1_S1600000_n_0_0_1 x
        (broadcastInDim S1600000x1 ![0] bcast_S1600000_S1600000x1_0 (select (cmpi .slt v z) (addi v w) v)) upd (ix1 i)
      = ∑ k : Fin 1600000, if Gcn.node E 1 k = i then (1 : EReal) else 0 := by
  refine (congrFun (hostScatterAdd_bins x _ upd) (ix1 i)).trans ?_
  refine (ScatterAddBins.scatterAdd_bins_apply _ x _ upd i).trans ?_
  rw [hx, zero_add]
  refine Finset.sum_congr rfl fun k _ => ?_
  refine if_congr ?_ (hu k) rfl
  have hk : broadcastInDim S1600000x1 ![0] bcast_S1600000_S1600000x1_0 (select (cmpi .slt v z) (addi v w) v) (ix2 k (0 : Fin 1))
      = E (ix2 (1 : Fin 2) k) :=
    (wrapColumn_apply v z w bcast_S1600000_S1600000x1_0 k 0 (hz k) (by rw [hv]; exact (hE 1 k).1)).trans (hv k)
  rw [hk, Gcn.node_val hE 1 k]
  exact ⟨fun h => Fin.ext (by omega), fun h => by rw [h]⟩

/-- Before region 0: the column of inverse square roots of the degrees (ones scattered-and-added at the target
    words into zeros, plus one, through the inverse square root, reshaped to a column). -/
theorem V1_v16 (c : Dev nD) (hE : Gcn.InRange (m ((c : Thread nD τ).loc main_arg1))) :
    V1 m ρ c main_v16 = Gcn.dinvCol (m ((c : Thread nD τ).loc main_arg1)) := by
  show StableHlo.after hostOps0 (W0 m ρ c) (Proc.devRef .tc main_v16) = _
  after_results_simp
  funext j
  obtain ⟨i, q, rfl⟩ : ∃ (i : Fin 100000) (q : Fin 1), j = ix2 i q := ⟨j 0, j 1, eq_ix2 j⟩
  refine (toColumn_apply _ _ i q).trans ?_
  refine (hostRsqrt_apply _ _).trans ?_
  show _ = Ideal.rsqrt (Gcn.deg (m ((c : Thread nD τ).loc main_arg1)) i)
  refine congrArg Ideal.rsqrt ?_
  refine (addf_apply _ _ _).trans ?_
  show _ + _ = (∑ k : Fin 1600000, if Gcn.node (m ((c : Thread nD τ).loc main_arg1)) 1 k = i then (1 : EReal) else 0) + 1
  refine congr (congrArg HAdd.hAdd ?_) ?_
  · refine scatter_ones_apply (m ((c : Thread nD τ).loc main_arg1)) hE _ _ _ ?_ ?_ _ _ ?_ ?_ i
    · exact fun k => rowOne_flat_apply _ _ _ k
    · exact fun k => broadcastInDim_scalar_apply _ _ _
    · exact fun b => (broadcastInDim_scalar_apply _ _ _).trans ((constant_apply _ _).trans Ideal.ofBits_zero_f32)
    · exact fun k => (broadcastInDim_scalar_apply _ _ _).trans ((constant_apply _ _).trans Ideal.ofBits_one_f32)
  · exact (broadcastInDim_scalar_apply _ _ _).trans ((constant_apply _ _).trans Ideal.ofBits_one_f32)

end Cert.KernelIdeal.HostD

end
-- ==== Proof.KValue.lean ====
/-
  The kernel program's result as one function of its arguments.

  The program runs six whole-array steps, each read off its own stretch of the run: the column d of inverse square
  roots of the degrees (host operations before the first region); the rows of x W1 scaled by d (region 0); those
  rows gathered at the sources and summed at the targets (host); d (sum + scaled) + b1 through max(., 0)
  (region 1); the rows of the hidden features times W2 scaled by d (region 2); gathered and summed again (host);
  and d (sum + scaled) + b2 (region 3). Chained, they are the network in its first arrangement.
-/
import proofs.«410323_j14740327760488_1_alg».proof.Proof.KRun
import proofs.«410323_j14740327760488_1_alg».proof.Proof.KReg02
import proofs.«410323_j14740327760488_1_alg».proof.Proof.KReg13
import proofs.«410323_j14740327760488_1_alg».proof.Proof.KHostT
import proofs.«410323_j14740327760488_1_alg».proof.Proof.KHostG
import proofs.«410323_j14740327760488_1_alg».proof.Proof.KHostD
import proofs.«410323_j14740327760488_1_alg».proof.Proof.GcnSpec

set_option maxRecDepth 16384

noncomputable section

namespace Cert.KernelIdeal.KValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result array at the last boundary of the run is the network of the launch arguments. -/
theorem final (c : Dev nD) (hE : Gcn.InRange (m ((c : Thread nD τ).loc main_arg1))) :
    W9 m ρ c (Proc.devRef .tc main_v30)
      = Gcn.kerOut (m ((c : Thread nD τ).loc main_arg1)) (m ((c : Thread nD τ).loc main_arg0))
          (m ((c : Thread nD τ).loc main_arg2)) (m ((c : Thread nD τ).loc main_arg3))
          (m ((c : Thread nD τ).loc main_arg4)) (m ((c : Thread nD τ).loc main_arg5)) := by
  -- the column of inverse square roots, as region 0 finds it
  have d1 := HostD.V1_v16 m ρ c hE
  -- the scaled rows of x W1, as region 0 leaves them
  have g1 : V2 m ρ c main_v17 = Gcn.scaledBy (m ((c : Thread nD τ).loc main_arg0)) (m ((c : Thread nD τ).loc main_arg2))
      (Gcn.dinvCol (m ((c : Thread nD τ).loc main_arg1))) := by
    rw [HostT.V2_v17, Reg02.reg0_final, HostT.V1_arg0, HostT.V1_arg2, d1]
  -- gathered and summed, as region 1 finds them
  have a1 := HostG.V4_v21 m ρ c hE
  rw [g1] at a1
  -- the hidden features, as region 1 leaves them
  have h1 : V5 m ρ c main_v23 = Gcn.finishRelu
      (Gcn.gatherSum (m ((c : Thread nD τ).loc main_arg1)) (Gcn.scaledBy (m ((c : Thread nD τ).loc main_arg0)) (m ((c : Thread nD τ).loc main_arg2)) (Gcn.dinvCol (m ((c : Thread nD τ).loc main_arg1)))))
      (Gcn.scaledBy (m ((c : Thread nD τ).loc main_arg0)) (m ((c : Thread nD τ).loc main_arg2)) (Gcn.dinvCol (m ((c : Thread nD τ).loc main_arg1))))
      (Gcn.dinvCol (m ((c : Thread nD τ).loc main_arg1))) (Gcn.rowVec (m ((c : Thread nD τ).loc main_arg3))) := by
    rw [HostT.V5_v23, Reg13.reg1_final, a1, HostT.V4_v17, g1, HostT.V4_v16, d1, HostT.V4_v22]
  -- the scaled rows of h W2, as region 2 leaves them
  have g2 := HostT.V6_v24 m ρ c
  rw [Reg02.reg2_final, h1, HostT.V5_arg4, HostT.V5_v16, d1] at g2
  -- gathered and summed, as region 3 finds them
  have a2 := HostG.V8_v28 m ρ c hE
  rw [g2] at a2
  -- the result, as region 3 leaves it
  rw [HostT.W9_v30, Reg13.reg3_final, a2, HostT.V8_v24, g2, HostT.V8_v16, d1, HostT.V8_v29]
  exact Gcn.kerOut_steps _ _ _ _ _ _

end Cert.KernelIdeal.KValue

end
-- ==== Proof.RefValueA.lean ====
import proofs.«410323_j14740327760488_1_alg».proof.Proof.RefRead
import proofs.«410323_j14740327760488_1_alg».proof.Proof.GcnSpec
import proofs.«410323_j14740327760488_1_alg».proof.Proof.LibScatterAddRows
import proofs.«410323_j14740327760488_1_alg».proof.Proof.LibScatterAddBins
import proofs.«410323_j14740327760488_1_alg».proof.Proof.LibGatherRows
import Idealize.ShloMosaic.Lib.Pipeline.Value
import Idealize.ShloMosaic.Lib.ValueIdx
import Idealize.ShloMosaic.PureOps.Ideal.Laws
import Idealize.ShloMosaic.Lib.IdealHost
import Idealize.ShloMosaic.Lib.StableHlo.Predicate

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx Idealize.SL.Sem
open scoped BigOperators

/-!
  The reference program read stage by stage: the stages both layers share. The node words: the two rows of the
  edge list, each followed by the numbers of the nodes, name at every position of the longer list the node the
  specification's longer list names (a node word in range is not negative, so the negative-index wrap leaves it, and
  the clamp of a take leaves it). The binned sum of ones over the targets is the degree; its guarded inverse square
  root, taken at the two ends of a listed edge and multiplied, is the edge's weight. A layer's tail takes the rows of
  a dense product at the sources, scales them by the weights and sums them into the rows of the targets; it is
  stated once for a product with any number of columns.
-/

section Stages

variable (x1 : (⟨S2x1600000, .i32⟩ : BufTy).Contents (Elt Ideal))

/-! ### Node words -/

/-- A word that is not negative passes the negative-index wrap unchanged. -/
theorem wrap_id (v : BitVec 32) (h0 : 0 ≤ v.toInt) :
    Scalar.select (IntOp.cmpi .slt v 0#32) (IntOp.addi v 100000#32) v = v := by
  have hs : v.slt 0#32 = false := by
    rw [BitVec.slt, decide_eq_false_iff_not]
    have : (0#32).toInt = 0 := by decide
    omega
  show Scalar.select (BitVec.ofBool (v.slt 0#32)) _ v = v
  rw [hs]
  exact select_zero _ _

/-- The longer list of node words: the given words, then the numbers of the nodes. At every position it names the
    node the specification's longer list names. -/
theorem cat_word (hE : Gcn.InRange x1) (r : Fin 2) (a : S1600000.Idx → BitVec 32)
    (ha : ∀ k' : Fin 1600000, a (ix1 k') = x1 (ix2 r k')) (k : Fin 1700000) :
    (concatenate S1700000 0 [⟨S1600000, a⟩, ⟨S100000, val_main_v4 (F := Ideal)⟩]
      concatenates_S1600000_S100000_S1700000_d0 (ix1 k)).toInt = ((Gcn.node' x1 r k).val : Int) := by
  by_cases h : k.val < 1600000
  · have e : concatenate S1700000 0 [⟨S1600000, a⟩, ⟨S100000, val_main_v4 (F := Ideal)⟩]
        concatenates_S1600000_S100000_S1700000_d0 (ix1 k) = a (ix1 (⟨k.val, h⟩ : Fin 1600000)) := by
      refine concatenate_pair_apply_left (t := S1700000) (s₁ := S1600000) (s₂ := S100000) (0 : Fin 1) _ _
        concatenates_S1600000_S100000_S1700000_d0 (ix1 k) rfl (ix1 (⟨k.val, h⟩ : Fin 1600000)) ?_
      intro b
      match b with
      | ⟨0, _⟩ => rfl
    rw [e, ha, Gcn.node_val hE]
    unfold Gcn.node'
    rw [dif_pos h]
  · have e : concatenate S1700000 0 [⟨S1600000, a⟩, ⟨S100000, val_main_v4 (F := Ideal)⟩]
        concatenates_S1600000_S100000_S1700000_d0 (ix1 k) = BitVec.ofNat 32 (k.val - 1600000) := by
      refine concatenate_pair_apply_right (t := S1700000) (s₁ := S1600000) (s₂ := S100000) (0 : Fin 1) _ _
        concatenates_S1600000_S100000_S1700000_d0 (ix1 k) rfl rfl (ix1 (⟨k.val - 1600000, by omega⟩ : Fin 100000)) ?_ ?_
      · intro b hb
        match b with
        | ⟨0, _⟩ => exact absurd rfl hb
      · show k.val - 1600000 + 1600000 = k.val
        omega
    rw [e, StableHlo.Predicate.toInt_ofNat_small _ (by have := k.isLt; omega)]
    unfold Gcn.node'
    rw [dif_neg h]

/-- The source words of the longer list name the specification's sources. -/
theorem word5 (hE : Gcn.InRange x1) (k : Fin 1700000) :
    (val_main_v5 (F := Ideal) x1 (ix1 k)).toInt = ((Gcn.node' x1 0 k).val : Int) := by
  refine cat_word x1 hE 0 _ (fun k' => ?_) k
  rw [val_main_v1_apply, val_main_v0_apply]
  refine congrArg x1 (funext fun a => Fin.ext ?_)
  match a with
  | ⟨0, _⟩ => rfl
  | ⟨1, _⟩ => exact Nat.mod_eq_of_lt k'.isLt

/-- The target words of the longer list name the specification's targets. -/
theorem word6 (hE : Gcn.InRange x1) (k : Fin 1700000) :
    (val_main_v6 (F := Ideal) x1 (ix1 k)).toInt = ((Gcn.node' x1 1 k).val : Int) := by
  refine cat_word x1 hE 1 _ (fun k' => ?_) k
  rw [val_main_v3_apply, val_main_v2_apply]
  refine congrArg x1 (funext fun a => Fin.ext ?_)
  match a with
  | ⟨0, _⟩ => rfl
  | ⟨1, _⟩ => exact Nat.mod_eq_of_lt k'.isLt

/-- A word names node b exactly when the node it names is b. -/
theorem word_eq_iff {v : BitVec 32} {n b : Fin 100000} (h : v.toInt = (n.val : Int)) :
    v.toInt = (b.val : Int) ↔ n = b := by
  rw [h]
  exact ⟨fun e => Fin.ext (by omega), fun e => by rw [e]⟩

/-- The clamped position of a word that names a node is that node. -/
theorem clampPos_node {v : BitVec 32} {n : Fin 100000} (h : v.toInt = (n.val : Int)) :
    GatherRows.clampPos 100000 (by norm_num) v = n := by
  apply Fin.ext
  show min v.toInt.toNat (100000 - 1) = n.val
  have := n.isLt
  omega

/-! ### The host operations at the ideal instance, over any shapes -/

/-- The accumulating scatter at the ideal instance is the exact sum of the landing updates. -/
theorem scatterAdd_ideal {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

/-- The product of two arrays at an index is the product of their entries. -/
theorem mulf_ideal_apply {s : Shape} (a b : s.Idx → EReal) (i : s.Idx) :
    mulf (F := Ideal) (φ := .f32) a b i = a i * b i := rfl

/-- The word of zero is zero. -/
theorem bits_zero : FloatOps.ofBits (F := Ideal) .f32 0x00000000#32 = (0 : EReal) := Ideal.ofBits_zero_f32

/-- The word of one is one. -/
theorem bits_one : FloatOps.ofBits (F := Ideal) .f32 0x3F800000#32 = (1 : EReal) := Ideal.ofBits_one_f32

/-! ### The index columns: every row holds the word of the node the longer list names -/

/-- The column's row k is the vector's entry k. -/
theorem col_row (k : Fin 1700000) : idx_main_v9 (ix2 k (0 : Fin 1)) = ix1 k := by
  funext a
  match a with
  | ⟨0, _⟩ => rfl

theorem idx9 (hE : Gcn.InRange x1) (k : Fin 1700000) :
    (val_main_v9 (F := Ideal) x1 (ix2 k (0 : Fin 1))).toInt = ((Gcn.node' x1 1 k).val : Int) := by
  rw [val_main_v9_apply, col_row]
  exact word6 x1 hE k

theorem idx42 (hE : Gcn.InRange x1) (k : Fin 1700000) :
    (val_main_v42 (F := Ideal) x1 (ix2 k (0 : Fin 1))).toInt = ((Gcn.node' x1 1 k).val : Int) := by
  have hc : idx_main_v42 (ix2 k (0 : Fin 1)) = ix1 k := col_row k
  rw [val_main_v42_apply, hc]
  exact word6 x1 hE k

theorem idx20 (hE : Gcn.InRange x1) (k : Fin 1700000) :
    (val_main_v20 (F := Ideal) x1 (ix2 k (0 : Fin 1))).toInt = ((Gcn.node' x1 0 k).val : Int) := by
  have hc : idx_main_v20 (ix2 k (0 : Fin 1)) = ix1 k := col_row k
  rw [val_main_v20_apply, hc, val_main_v19_apply, val_main_v16_apply, val_main_v18_apply, val_main_v15_apply,
    val_main_c_apply, val_main_v17_apply, val_main_c_3_apply, wrap_id _ (by rw [word5 x1 hE k]; omega)]
  exact word5 x1 hE k

theorem idx27 (hE : Gcn.InRange x1) (k : Fin 1700000) :
    (val_main_v27 (F := Ideal) x1 (ix2 k (0 : Fin 1))).toInt = ((Gcn.node' x1 1 k).val : Int) := by
  have hc : idx_main_v27 (ix2 k (0 : Fin 1)) = ix1 k := col_row k
  rw [val_main_v27_apply, hc, val_main_v26_apply, val_main_v23_apply, val_main_v25_apply, val_main_v22_apply,
    val_main_c_4_apply, val_main_v24_apply, val_main_c_5_apply, wrap_id _ (by rw [word6 x1 hE k]; omega)]
  exact word6 x1 hE k

theorem idx36 (hE : Gcn.InRange x1) (k : Fin 1700000) :
    (val_main_v36 (F := Ideal) x1 (ix2 k (0 : Fin 1))).toInt = ((Gcn.node' x1 0 k).val : Int) := by
  have hc : idx_main_v36 (ix2 k (0 : Fin 1)) = ix1 k := col_row k
  rw [val_main_v36_apply, hc, val_main_v35_apply, val_main_v32_apply, val_main_v34_apply, val_main_v31_apply,
    val_main_c_6_apply, val_main_v33_apply, val_main_c_7_apply, wrap_id _ (by rw [word5 x1 hE k]; omega)]
  exact word5 x1 hE k

/-! ### The degree and its inverse square root -/

/-- The binned sum of ones over the longer list of targets is the specification's degree. -/
theorem deg_v10 (hE : Gcn.InRange x1) (i : Fin 100000) :
    val_main_v10 (F := Ideal) x1 (ix1 i) = Gcn.refDeg x1 i := by
  have e := ScatterAddBins.scatterAdd_bins_apply (K := 100000) (N := 1700000) Gen.scatter_S100000_S1700000x1_S1700000_n_0_0_1_wf
    (val_main_v8 (F := Ideal)) (val_main_v9 (F := Ideal) x1) (val_main_v7 (F := Ideal)) i
  unfold val_main_v10
  refine (congrFun (scatterAdd_ideal _ _ _ _) _).trans ?_
  refine e.trans ?_
  have h8 : val_main_v8 (F := Ideal) (ix1 i) = 0 := by
    rw [val_main_v8_apply, val_main_cst_0_apply]; exact bits_zero
  rw [h8, zero_add]
  unfold Gcn.refDeg
  refine Finset.sum_congr rfl fun k _ => ?_
  have h7 : val_main_v7 (F := Ideal) (ix1 k) = 1 := by
    rw [val_main_v7_apply, val_main_cst_apply]; exact bits_one
  rw [h7]
  exact if_congr (word_eq_iff (idx9 x1 hE k)) rfl rfl

/-- The guarded inverse square root of the degree is the specification's. -/
theorem dinv_v14 (hE : Gcn.InRange x1) (i : Fin 100000) :
    val_main_v14 (F := Ideal) x1 (ix1 i) = Gcn.refDinv x1 i := by
  rw [val_main_v14_apply, val_main_v12_apply, val_main_v13_apply, val_main_call0_v1_apply, val_main_call0_v0_apply,
    val_main_cst_2_apply, val_main_v11_apply, val_main_cst_1_apply, deg_v10 x1 hE, Ideal.cmpf_def,
    Ideal.hostUnary_rsqrt_def, bits_zero]
  unfold Gcn.refDinv
  by_cases h : 0 < Gcn.refDeg x1 i
  · rw [if_pos h]
    have : Ideal.cmp .ogt (Gcn.refDeg x1 i) 0 = 1#1 := by
      show BitVec.ofBool (decide (0 < Gcn.refDeg x1 i)) = 1#1
      rw [decide_eq_true h]; rfl
    rw [this]
    exact select_one _ _
  · rw [if_neg h]
    have : Ideal.cmp .ogt (Gcn.refDeg x1 i) 0 = 0#1 := by
      show BitVec.ofBool (decide (0 < Gcn.refDeg x1 i)) = 0#1
      rw [decide_eq_false h]; rfl
    rw [this]
    exact select_zero _ _

/-! ### Takes along the node axis -/

/-- The take from a vector over the nodes, at a row whose start word names node n, reads entry n. -/
theorem gather_vec_node (x : S100000.Idx → EReal) (idx : IVec S1700000x1 32) (k : Fin 1700000) (n : Fin 100000)
    (h : (idx (ix2 k (0 : Fin 1))).toInt = (n.val : Int)) :
    Host.gather gather_S100000_S1700000x1_S1700000_n_0_n_n_0_1_1 x idx (ix1 k) = x (ix1 n) := by
  have e := StableHlo.Predicate.gather_take gather_S100000_S1700000x1_S1700000_n_0_n_n_0_1_1 rfl rfl rfl rfl
    x idx k (by norm_num)
  have hk : (Shape.Idx.ofFin k : S1700000.Idx) = ix1 k := by
    funext a
    match a with
    | ⟨0, _⟩ => rfl
  have hp : (StableHlo.Predicate.ixP k : S1700000x1.Idx) = ix2 k (0 : Fin 1) := by
    funext a
    match a with
    | ⟨0, _⟩ => rfl
    | ⟨1, _⟩ => rfl
  rw [hk] at e
  refine e.trans (congrArg x ?_)
  funext a
  match a with
  | ⟨0, _⟩ =>
    refine Fin.ext ?_
    show min (idx (StableHlo.Predicate.ixP k)).toInt.toNat (100000 - 1) = n.val
    rw [hp]
    have := n.isLt
    omega

/-- The take of whole rows from a table over the nodes, at a row whose start word names node n, reads row n. -/
theorem gather_rows_node {D : Nat}
    (wf : GatherDims.WF ⟨2, ![100000, D]⟩ ⟨2, ![1700000, 1]⟩ ⟨2, ![1700000, D]⟩ [1] [0] [] [0] [] 1 ![1, D])
    (x : (⟨2, ![100000, D]⟩ : Shape).Idx → EReal) (idx : IVec ⟨2, ![1700000, 1]⟩ 32) (k : Fin 1700000) (j : Fin D)
    (n : Fin 100000) (h : (idx (ix2 k (0 : Fin 1))).toInt = (n.val : Int)) :
    Host.gather (GatherRows.colDims 100000 D 1700000 wf) x idx (ix2 k j) = x (ix2 n j) := by
  refine (GatherRows.gather_col_apply (by norm_num) wf x idx (ix2 k j)).trans ?_
  show x (ix2 (GatherRows.clampPos 100000 _ (idx (ix2 k (0 : Fin 1)))) j) = _
  rw [clampPos_node h]

/-! ### The weight of a listed edge -/

/-- The inverse square root taken at the source of listed edge k. -/
theorem dinv_v21 (hE : Gcn.InRange x1) (k : Fin 1700000) :
    val_main_v21 (F := Ideal) x1 (ix1 k) = Gcn.refDinv x1 (Gcn.node' x1 0 k) := by
  unfold val_main_v21
  rw [gather_vec_node _ _ k _ (idx20 x1 hE k)]
  exact dinv_v14 x1 hE _

/-- The inverse square root taken at the target of listed edge k. -/
theorem dinv_v28 (hE : Gcn.InRange x1) (k : Fin 1700000) :
    val_main_v28 (F := Ideal) x1 (ix1 k) = Gcn.refDinv x1 (Gcn.node' x1 1 k) := by
  unfold val_main_v28
  rw [gather_vec_node _ _ k _ (idx27 x1 hE k)]
  exact dinv_v14 x1 hE _

/-- The weight of listed edge k: the product of the two. -/
theorem norm_v29 (hE : Gcn.InRange x1) (k : Fin 1700000) :
    val_main_v29 (F := Ideal) x1 (ix1 k)
      = Gcn.refDinv x1 (Gcn.node' x1 0 k) * Gcn.refDinv x1 (Gcn.node' x1 1 k) := by
  rw [val_main_v29_apply, dinv_v21 x1 hE, dinv_v28 x1 hE]
  rfl

/-! ### One layer's weighted sum over the listed edges, for a product with D columns -/

/-- Rows of a product H = X W are taken at the sources of the listed edges, scaled by the edges' weights, and summed
    into the rows of their targets: at (i, j) this is the specification's sum over the longer list. -/
theorem tail_sum {D : Nat}
    (wfg : GatherDims.WF ⟨2, ![100000, D]⟩ ⟨2, ![1700000, 1]⟩ ⟨2, ![1700000, D]⟩ [1] [0] [] [0] [] 1 ![1, D])
    (wfs : ScatterDims.WF ⟨2, ![100000, D]⟩ ⟨2, ![1700000, 1]⟩ ⟨2, ![1700000, D]⟩ [1] [0] [0] 1)
    (X : Gcn.Mat 100000 128) (W : Gcn.Mat 128 D)
    (H zero : Gcn.Mat 100000 D) (idxS idxT : IVec ⟨2, ![1700000, 1]⟩ 32) (nrm : Gcn.Mat 1700000 D)
    (hH : ∀ n j, H (ix2 n j) = Gcn.lin X W n j)
    (hz : ∀ i j, zero (ix2 i j) = 0)
    (hS : ∀ k, (idxS (ix2 k (0 : Fin 1))).toInt = ((Gcn.node' x1 0 k).val : Int))
    (hT : ∀ k, (idxT (ix2 k (0 : Fin 1))).toInt = ((Gcn.node' x1 1 k).val : Int))
    (hn : ∀ k j, nrm (ix2 k j) = Gcn.refDinv x1 (Gcn.node' x1 0 k) * Gcn.refDinv x1 (Gcn.node' x1 1 k))
    (i : Fin 100000) (j : Fin D) :
    Host.scatterAdd (F := Ideal) (φ := .f32) (ScatterAddRows.rowsDims 100000 D 1700000 wfs) zero idxT
        (mulf (F := Ideal) (φ := .f32) (Host.gather (GatherRows.colDims 100000 D 1700000 wfg) H idxS) nrm) (ix2 i j)
      = ∑ k : Fin 1700000, if Gcn.node' x1 1 k = i
          then Gcn.lin X W (Gcn.node' x1 0 k) j * (Gcn.refDinv x1 (Gcn.node' x1 0 k) * Gcn.refDinv x1 (Gcn.node' x1 1 k))
          else 0 := by
  refine (congrFun (scatterAdd_ideal _ _ _ _) _).trans ?_
  refine (ScatterAddRows.scatterAdd_rows_apply wfs zero idxT _ i j).trans ?_
  rw [hz, zero_add]
  refine Finset.sum_congr rfl fun k _ => ?_
  refine if_congr (word_eq_iff (hT k)) ?_ rfl
  rw [mulf_ideal_apply, gather_rows_node wfg H idxS k j _ (hS k), hH, hn]

end Stages

end Cert.ReferenceIdeal.RefValue

end
-- ==== Proof.RefValue.lean ====
import proofs.«410323_j14740327760488_1_alg».proof.Proof.RefRead
import proofs.«410323_j14740327760488_1_alg».proof.Proof.GcnSpec
import proofs.«410323_j14740327760488_1_alg».proof.Proof.LibScatterAddRows
import proofs.«410323_j14740327760488_1_alg».proof.Proof.LibScatterAddBins
import proofs.«410323_j14740327760488_1_alg».proof.Proof.LibGatherRows
import proofs.«410323_j14740327760488_1_alg».proof.Proof.RefValueA
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx Idealize.SL.Sem
open scoped BigOperators

/-!
  The two layers of the reference program, each from the shared stages: the dense product, the edges' weights laid
  along its columns, the weighted sum over the listed edges and the bias. The second layer repeats the first over the
  hidden features with 64 columns; its node words and weights are the first layer's terms again.
-/

section Layers

variable (x1 : (⟨S2x1600000, .i32⟩ : BufTy).Contents (Elt Ideal))

/-! ### Layer 1 -/

variable (x0 : (⟨S100000x128, .f32⟩ : BufTy).Contents (Elt Ideal)) (x2 : (⟨S128x128, .f32⟩ : BufTy).Contents (Elt Ideal))
  (x3 : (⟨S128, .f32⟩ : BufTy).Contents (Elt Ideal)) (x4 : (⟨S128x64, .f32⟩ : BufTy).Contents (Elt Ideal))
  (x5 : (⟨S64, .f32⟩ : BufTy).Contents (Elt Ideal))

/-- The first dense product. -/
theorem lin_v30 (n : Fin 100000) (j : Fin 128) :
    val_main_v30 (F := Ideal) x0 x2 (ix2 n j) = Gcn.lin x0 x2 n j := by
  rw [val_main_v30_apply]
  unfold Gcn.lin
  refine Finset.sum_congr rfl fun k _ => ?_
  have hl : lidx_main_v30 (ix2 n j) k = ix2 n k := by
    funext a
    match a with
    | ⟨0, _⟩ => rfl
    | ⟨1, _⟩ => rfl
  have hr : ridx_main_v30 (ix2 n j) k = ix2 k j := by
    funext a
    match a with
    | ⟨0, _⟩ => rfl
    | ⟨1, _⟩ => rfl
  rw [hl, hr]

/-- The edges' weights laid along the 128 columns. -/
theorem nrm_v39 (hE : Gcn.InRange x1) (k : Fin 1700000) (j : Fin 128) :
    val_main_v39 (F := Ideal) x1 (ix2 k j)
      = Gcn.refDinv x1 (Gcn.node' x1 0 k) * Gcn.refDinv x1 (Gcn.node' x1 1 k) := by
  have h39 : idx_main_v39 (ix2 k j) = ix2 k (0 : Fin 1) := by
    funext a
    match a with
    | ⟨0, _⟩ => rfl
    | ⟨1, _⟩ => rfl
  have h38 : idx_main_v38 (ix2 k (0 : Fin 1)) = ix1 k := col_row k
  rw [val_main_v39_apply, h39, val_main_v38_apply, h38]
  exact norm_v29 x1 hE k

theorem zero_v41 (i : Fin 100000) (j : Fin 128) : val_main_v41 (F := Ideal) (ix2 i j) = 0 := by
  rw [val_main_v41_apply, val_main_cst_8_apply]
  exact bits_zero

/-- The bias laid along the rows. -/
theorem bias_v45 (i : Fin 100000) (j : Fin 128) : val_main_v45 (F := Ideal) x3 (ix2 i j) = x3 (ix1 j) := by
  rw [val_main_v45_apply, val_main_v44_apply]
  refine congrArg x3 (funext fun a => ?_)
  match a with
  | ⟨0, _⟩ => rfl

/-- Layer 1 before the maximum is the specification's layer. -/
theorem layer_v46 (hE : Gcn.InRange x1) (i : Fin 100000) (j : Fin 128) :
    val_main_v46 (F := Ideal) x0 x1 x2 x3 (ix2 i j) = Gcn.refLayer x1 x0 x2 x3 i j := by
  have e43 : val_main_v43 (F := Ideal) x0 x1 x2
      = Host.scatterAdd (F := Ideal) (φ := .f32)
          (ScatterAddRows.rowsDims 100000 128 1700000 Gen.scatter_S100000x128_S1700000x1_S1700000x128_1_0_0_1_wf)
          (val_main_v41 (F := Ideal)) (val_main_v42 (F := Ideal) x1)
          (mulf (F := Ideal) (φ := .f32)
            (Host.gather (GatherRows.colDims 100000 128 1700000 Gen.gather_S100000x128_S1700000x1_S1700000x128_1_0_n_n_0_1_1128_wf)
              (val_main_v30 (F := Ideal) x0 x2) (val_main_v36 (F := Ideal) x1))
            (val_main_v39 (F := Ideal) x1)) := rfl
  rw [val_main_v46_apply, Ideal.addf_def, e43,
    tail_sum x1 _ _ x0 x2 _ _ _ _ _ (lin_v30 x0 x2) zero_v41 (idx36 x1 hE) (idx42 x1 hE) (nrm_v39 x1 hE) i j,
    bias_v45]
  rfl

/-- The hidden features are the specification's. -/
theorem hidden_v47 (hE : Gcn.InRange x1) :
    val_main_v47 (F := Ideal) x0 x1 x2 x3 = Gcn.refHidden x1 x0 x2 x3 := by
  funext idx
  obtain ⟨p, q, rfl⟩ : ∃ (p : Fin 100000) (q : Fin 128), idx = ix2 p q := ⟨idx 0, idx 1, eq_ix2 idx⟩
  rw [val_main_v47_apply, Ideal.maximumf_def, layer_v46 x1 x0 x2 x3 hE, val_main_call1_v0_apply,
    val_main_call1_cst_apply, bits_zero]
  rfl

/-! ### Layer 2: the same stages over the hidden features, with 64 columns -/

/-- The second dense product, of the hidden features. -/
theorem lin_v78 (hE : Gcn.InRange x1) (n : Fin 100000) (j : Fin 64) :
    val_main_v78 (F := Ideal) x0 x1 x2 x3 x4 (ix2 n j) = Gcn.lin (Gcn.refHidden x1 x0 x2 x3) x4 n j := by
  rw [val_main_v78_apply, hidden_v47 x1 x0 x2 x3 hE]
  unfold Gcn.lin
  refine Finset.sum_congr rfl fun k _ => ?_
  have hl : lidx_main_v78 (ix2 n j) k = ix2 n k := by
    funext a
    match a with
    | ⟨0, _⟩ => rfl
    | ⟨1, _⟩ => rfl
  have hr : ridx_main_v78 (ix2 n j) k = ix2 k j := by
    funext a
    match a with
    | ⟨0, _⟩ => rfl
    | ⟨1, _⟩ => rfl
  rw [hl, hr]

/-- The edges' weights laid along the 64 columns; the weights are those of layer 1, computed again. -/
theorem nrm_v87 (hE : Gcn.InRange x1) (k : Fin 1700000) (j : Fin 64) :
    val_main_v87 (F := Ideal) x1 (ix2 k j)
      = Gcn.refDinv x1 (Gcn.node' x1 0 k) * Gcn.refDinv x1 (Gcn.node' x1 1 k) := by
  have h87 : idx_main_v87 (ix2 k j) = ix2 k (0 : Fin 1) := by
    funext a
    match a with
    | ⟨0, _⟩ => rfl
    | ⟨1, _⟩ => rfl
  have h86 : idx_main_v86 (ix2 k (0 : Fin 1)) = ix1 k := col_row k
  have h77 : val_main_v77 (F := Ideal) x1 = val_main_v29 (F := Ideal) x1 := rfl
  rw [val_main_v87_apply, h87, val_main_v86_apply, h86, h77]
  exact norm_v29 x1 hE k

theorem zero_v89 (i : Fin 100000) (j : Fin 64) : val_main_v89 (F := Ideal) (ix2 i j) = 0 := by
  rw [val_main_v89_apply, val_main_cst_19_apply]
  exact bits_zero

/-- The second bias laid along the rows. -/
theorem bias_v93 (i : Fin 100000) (j : Fin 64) : val_main_v93 (F := Ideal) x5 (ix2 i j) = x5 (ix1 j) := by
  rw [val_main_v93_apply, val_main_v92_apply]
  refine congrArg x5 (funext fun a => ?_)
  match a with
  | ⟨0, _⟩ => rfl

/-- Layer 2 is the specification's layer over the hidden features. -/
theorem layer_v94 (hE : Gcn.InRange x1) (i : Fin 100000) (j : Fin 64) :
    val_main_v94 (F := Ideal) x0 x1 x2 x3 x4 x5 (ix2 i j)
      = Gcn.refLayer x1 (Gcn.refHidden x1 x0 x2 x3) x4 x5 i j := by
  have e91 : val_main_v91 (F := Ideal) x0 x1 x2 x3 x4
      = Host.scatterAdd (F := Ideal) (φ := .f32)
          (ScatterAddRows.rowsDims 100000 64 1700000 Gen.scatter_S100000x64_S1700000x1_S1700000x64_1_0_0_1_wf)
          (val_main_v89 (F := Ideal)) (val_main_v42 (F := Ideal) x1)
          (mulf (F := Ideal) (φ := .f32)
            (Host.gather (GatherRows.colDims 100000 64 1700000 Gen.gather_S100000x64_S1700000x1_S1700000x64_1_0_n_n_0_1_164_wf)
              (val_main_v78 (F := Ideal) x0 x1 x2 x3 x4) (val_main_v36 (F := Ideal) x1))
            (val_main_v87 (F := Ideal) x1)) := rfl
  rw [val_main_v94_apply, Ideal.addf_def, e91,
    tail_sum x1 _ _ (Gcn.refHidden x1 x0 x2 x3) x4 _ _ _ _ _ (lin_v78 x1 x0 x2 x3 x4 hE) zero_v89 (idx36 x1 hE)
      (idx42 x1 hE) (nrm_v87 x1 hE) i j,
    bias_v93]
  rfl

end Layers

/-- The reference program's result, stage by stage, is the network in the arrangement that lists the loops after
    the edges and weights every listed edge (`Gcn.refOut`), when every node word names a node. -/
theorem ref_value (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (hE : Gcn.InRange x1) :
    val_main_v94 (F := Ideal) x0 x1 x2 x3 x4 x5 = Gcn.refOut x1 x0 x2 x3 x4 x5 := by
  funext idx
  obtain ⟨p, q, rfl⟩ : ∃ (p : Fin 100000) (q : Fin 64), idx = ix2 p q := ⟨idx 0, idx 1, eq_ix2 idx⟩
  exact layer_v94 x1 x0 x2 x3 x4 x5 hE p q

end Cert.ReferenceIdeal.RefValue

end
-- ==== Proof.PreRange.lean ====
import proofs.«410323_j14740327760488_1_alg».proof.Pre_finite_inputs
import proofs.«410323_j14740327760488_1_alg».proof.Proof.GcnSpec
import Idealize.ShloMosaic.Lib.ReduceAll
import Idealize.ShloMosaic.Lib.StableHlo.Predicate
import Idealize.ShloMosaic.Lib.ValueIdx

noncomputable section

namespace Cert.PreRange

open Idealize.ShloMosaic Idealize.ShloMosaic.ValueIdx Cert.Pre_finite_inputs

variable {F : FTy → Type} [FloatOps F] [Cert.Pre_finite_inputs.Facts]

/-- The empty shape has one index. -/
instance : Subsingleton S_.Idx := ⟨fun a b => funext fun d => d.elim0⟩

/-- A scalar word broadcast over the edge list reads that word at every index. -/
theorem bcast_const (w : Nat) (c : BitVec w) (j : S2x1600000.Idx) :
    broadcastInDim S2x1600000 ![] Facts.bcast_S_S2x1600000 (constantI S_ w c) j = c :=
  StableHlo.Predicate.bcast_scalar Facts.bcast_S_S2x1600000 Facts.h_S_ (constantI S_ w c) j

/-- A word compared at-least against the broadcast 0 is non-negative. -/
theorem nonneg_of_sge (a1 : IVec S2x1600000 32) (j : S2x1600000.Idx)
    (g : cmpi .sge a1 (broadcastInDim S2x1600000 ![] Facts.bcast_S_S2x1600000 (constantI S_ 32 0#32)) j = 1#1) :
    0 ≤ (a1 j).toInt := by
  have g2 : (broadcastInDim S2x1600000 ![] Facts.bcast_S_S2x1600000 (constantI S_ 32 0#32) j).toInt ≤ (a1 j).toInt :=
    IntOp.cmpi_sge.1 g
  rw [bcast_const] at g2
  exact g2

/-- A word compared below the broadcast 100000 is below 100000. -/
theorem lt_of_slt (a1 : IVec S2x1600000 32) (j : S2x1600000.Idx)
    (g : cmpi .slt a1 (broadcastInDim S2x1600000 ![] Facts.bcast_S_S2x1600000 (constantI S_ 32 100000#32)) j = 1#1) :
    (a1 j).toInt < 100000 := by
  have g2 : (a1 j).toInt < (broadcastInDim S2x1600000 ![] Facts.bcast_S_S2x1600000 (constantI S_ 32 100000#32) j).toInt :=
    IntOp.cmpi_slt.1 g
  rw [bcast_const] at g2
  exact g2

/-- The precondition's last two conjuncts say that every node word of the edge list is at least 0 and below 100000. -/
theorem inRange_of_pre (a0 : FVec F S100000x128 .f32) (a1 : IVec S2x1600000 32) (a2 : FVec F S128x128 .f32)
    (a3 : FVec F S128 .f32) (a4 : FVec F S128x64 .f32) (a5 : FVec F S64 .f32)
    (h : Cert.Pre_finite_inputs.fn (F := F) a0 a1 a2 a3 a4 a5 = fun _ => 1#1) : Gcn.InRange a1 := by
  have h0 : Cert.Pre_finite_inputs.fn (F := F) a0 a1 a2 a3 a4 a5 ix0 = 1#1 := congrFun h ix0
  unfold Cert.Pre_finite_inputs.fn Cert.Pre_finite_inputs.fn_part1 at h0
  dsimp only at h0
  obtain ⟨h1, hlt⟩ := IntOp.andi_eq_one.1 h0
  obtain ⟨_, hge⟩ := IntOp.andi_eq_one.1 h1
  intro r k
  exact ⟨nonneg_of_sge a1 (ix2 r k) (Host.reduce_andi_all _ _ _ _ ix0 hge (ix2 r k)),
    lt_of_slt a1 (ix2 r k) (Host.reduce_andi_all _ _ _ _ ix0 hlt (ix2 r k))⟩

end Cert.PreRange

end
-- ==== Proof.lean ====
/-
  The certificate of a two-layer graph convolution: a Pallas kernel program (two dense row-blocked kernels per layer
  around a host gather and scatter-add) against its jnp reference.

  Over the extended reals both programs compute, per layer and node i,
      sum over the edges e into i and the loop at i of (X W)(src e, .) s(src e) s(i), plus the bias,
  with s the inverse square root of the degree (the in-degree plus one). The kernel program scales the rows of X W
  by s before the gather and the sum by s(i) after it; the reference lists the loops after the edges, weights each
  listed edge by s(src) s(dst) and sums. They agree because s(i) is a non-negative real, over which multiplication
  distributes on the extended reals (`Gcn.refLayer_eq`). The claim is stated for edge lists whose node words are in
  range, outside which the reference itself indexes out of range.

  The kernel program's result is read off its run region by region and host stretch by host stretch (`KValue.final`),
  the reference's off its run stage by stage (`RefValue.ref_value`); the precondition's two integer conjuncts give
  the range of the node words (`PreRange.inRange_of_pre`).
-/
import proofs.«410323_j14740327760488_1_alg».proof.Defs
import proofs.«410323_j14740327760488_1_alg».proof.Proof.Gen.Kernel
import proofs.«410323_j14740327760488_1_alg».proof.Proof.Gen.Kernel.Frame
import proofs.«410323_j14740327760488_1_alg».proof.Proof.Gen.KernelIdeal
import proofs.«410323_j14740327760488_1_alg».proof.Proof.Gen.KernelIdeal.Frame
import proofs.«410323_j14740327760488_1_alg».proof.Proof.Gen.ReferenceIdeal
import proofs.«410323_j14740327760488_1_alg».proof.Proof.Gen.Pre_finite_inputs
import proofs.«410323_j14740327760488_1_alg».proof.Proof.KRun
import proofs.«410323_j14740327760488_1_alg».proof.Proof.KValue
import proofs.«410323_j14740327760488_1_alg».proof.Proof.RefRun
import proofs.«410323_j14740327760488_1_alg».proof.Proof.RefRead
import proofs.«410323_j14740327760488_1_alg».proof.Proof.RefValue
import proofs.«410323_j14740327760488_1_alg».proof.Proof.PreRange
import proofs.«410323_j14740327760488_1_alg».proof.Proof.GcnSpec
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both runs end at the network of the (agreeing) arguments: the kernel program's in the arrangement that scales
    before and after the gather, the reference's in the arrangement that weights every listed edge; the two
    arrangements are one function. -/
theorem algebraic : Cert.algebraic_KernelIdeal_ReferenceIdeal := by
  intro m ρ m' ρ' hpre hagree
  have hE : ∀ c : Dev Cert.KernelIdeal.nD,
      Gcn.InRange (m ((c.tc : Thread Cert.KernelIdeal.nD Cert.KernelIdeal.τ).loc Cert.KernelIdeal.main_arg1)) :=
    fun c => Cert.PreRange.inRange_of_pre _ _ _ _ _ _ (hpre c)
  refine ⟨fun c => Gcn.kerOut
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.final m ρ c (hE c)), (h c).2⟩)
      (Cert.KernelIdeal.RunK.run_named m ρ)
  · refine (θ_run Cert.ReferenceIdeal.defs _ _).mono (fun r h c => ⟨(h c).1.trans ?_, (h c).2⟩)
      (Cert.ReferenceIdeal.RunP.run (F := Ideal) m' ρ')
    obtain ⟨e0, e1, e2, e3, e4, e5⟩ := hagree c
    rw [Cert.ReferenceIdeal.ReadP.val_main_v94_eq, e0, e1, e2, e3, e4, e5]
    exact (Cert.ReferenceIdeal.RefValue.ref_value _ _ _ _ _ _ (hE c)).trans (Gcn.refOut_eq _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
